-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64 : Shape := ⟨2, ![256, 64]⟩
abbrev S4x8x16 : Shape := ⟨3, ![4, 8, 16]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S_ : Shape := ⟨0, ![]⟩

class Facts : Prop where
  bcast_S_S256x64 : S_.BroadcastsInDim S256x64 (![] : Fin 0 → Fin S256x64.rank)
  reducesTo_S256x64_S_d0_1 : S256x64.ReducesTo [0, 1] S_
  h_S_ : 0 < S_.numel
  bcast_S_S4x8x16 : S_.BroadcastsInDim S4x8x16 (![] : Fin 0 → Fin S4x8x16.rank)
  reducesTo_S4x8x16_S_d0_1_2 : S4x8x16.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S32x64 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_v33

def fn {F : FTy → Type} [FloatOps F] (main_arg0 : FVec F S256x64 .f32) (main_arg1 : FVec F S4x8x16 .f32) (main_arg2 : FVec F S64x128 .f32) (main_arg3 : FVec F S64 .f32) (main_arg4 : FVec F S64x64 .f32) (main_arg5 : FVec F S64 .f32) (main_arg6 : FVec F S32x64 .f32) (main_arg7 : FVec F S32 .f32) : IVec S_ 1 :=
  let main_v0 : FVec F S256x64 .f32 := Host.absf main_arg0
  let main_cst : FVec F S_ .f32 := constant S_ .f32 0x7F800000#32
  let main_v1 : FVec F S256x64 .f32 := broadcastInDim S256x64 ![] bcast_S_S256x64 main_cst
  let main_v2 : IVec S256x64 1 := cmpf .olt main_v0 main_v1
  let main_c : IVec S_ 1 := constantI S_ 1 1#1
  let main_v3 : IVec S_ 1 := (fun x v => Host.reduce IntOp.andi x v reducesTo_S256x64_S_d0_1 h_S_) main_v2 main_c
  let main_v4 : FVec F S4x8x16 .f32 := Host.absf main_arg1
  let main_cst_0 : FVec F S_ .f32 := constant S_ .f32 0x7F800000#32
  let main_v5 : FVec F S4x8x16 .f32 := broadcastInDim S4x8x16 ![] bcast_S_S4x8x16 main_cst_0
  let main_v6 : IVec S4x8x16 1 := cmpf .olt main_v4 main_v5
  let main_c_1 : IVec S_ 1 := constantI S_ 1 1#1
  let main_v7 : IVec S_ 1 := (fun x v => Host.reduce IntOp.andi x v reducesTo_S4x8x16_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S256x64 : Shape := ⟨2, ![256, 64]⟩
abbrev S4x8x16 : Shape := ⟨3, ![4, 8, 16]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S8 : Shape := ⟨1, ![8]⟩
abbrev S_ : Shape := ⟨0, ![]⟩
abbrev S8x8x8x8 : Shape := ⟨4, ![8, 8, 8, 8]⟩
abbrev S1x8x8x8x8 : Shape := ⟨5, ![1, 8, 8, 8, 8]⟩
abbrev S4x8x8x8x8 : Shape := ⟨5, ![4, 8, 8, 8, 8]⟩
abbrev S4 : Shape := ⟨1, ![4]⟩
abbrev S8x8x8x8x4 : Shape := ⟨5, ![8, 8, 8, 8, 4]⟩
abbrev S8x8x8x8x4x1 : Shape := ⟨6, ![8, 8, 8, 8, 4, 1]⟩
abbrev S8x8x8x8x4x2 : Shape := ⟨6, ![8, 8, 8, 8, 4, 2]⟩
abbrev S8x8x8x8x4x16 : Shape := ⟨6, ![8, 8, 8, 8, 4, 16]⟩
abbrev S4096x64 : Shape := ⟨2, ![4096, 64]⟩
abbrev S1x64 : Shape := ⟨2, ![1, 64]⟩
abbrev S1x32 : Shape := ⟨2, ![1, 32]⟩
abbrev S256x4096x32 : Shape := ⟨3, ![256, 4096, 32]⟩
abbrev S128x64 : Shape := ⟨2, ![128, 64]⟩
abbrev S128x64x32 : Shape := ⟨3, ![128, 64, 32]⟩
abbrev S1x1x64 : Shape := ⟨3, ![1, 1, 64]⟩
abbrev S128x1x64 : Shape := ⟨3, ![128, 1, 64]⟩
abbrev S1x64x64 : Shape := ⟨3, ![1, 64, 64]⟩
abbrev S128x64x64 : Shape := ⟨3, ![128, 64, 64]⟩
abbrev S8192x64 : Shape := ⟨2, ![8192, 64]⟩
abbrev S64x32 : Shape := ⟨2, ![64, 32]⟩
abbrev S8192x32 : Shape := ⟨2, ![8192, 32]⟩

abbrev nBuf : Space → Nat
  | .hbm => 73
  | .vmem => 13
  | .smem => 0
  | _ => 0

abbrev bufTy : (tb : Table) → Fin (tcTables nBuf tb) → BufTy
  | .hbm, ⟨0, _⟩ => ⟨S256x64, .f32⟩
  | .hbm, ⟨1, _⟩ => ⟨S4x8x16, .f32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S32x64, .f32⟩
  | .hbm, ⟨7, _⟩ => ⟨S32, .f32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S_, .i32⟩
  | .hbm, ⟨34, _⟩ => ⟨S8, .i32⟩
  | .hbm, ⟨35, _⟩ => ⟨S8, .i32⟩
  | .hbm, ⟨36, _⟩ => ⟨S8x8x8x8, .i32⟩
  | .hbm, ⟨37, _⟩ => ⟨S8x8x8x8, .i32⟩
  | .hbm, ⟨38, _⟩ => ⟨S8x8x8x8, .i32⟩
  | .hbm, ⟨39, _⟩ => ⟨S8x8x8x8, .i32⟩
  | .hbm, ⟨40, _⟩ => ⟨S1x8x8x8x8, .i32⟩
  | .hbm, ⟨41, _⟩ => ⟨S1x8x8x8x8, .i32⟩
  | .hbm, ⟨42, _⟩ => ⟨S1x8x8x8x8, .i32⟩
  | .hbm, ⟨43, _⟩ => ⟨S1x8x8x8x8, .i32⟩
  | .hbm, ⟨44, _⟩ => ⟨S4x8x8x8x8, .i32⟩
  | .hbm, ⟨45, _⟩ => ⟨S4, .i32⟩
  | .hbm, ⟨46, _⟩ => ⟨S8x8x8x8x4, .i32⟩
  | .hbm, ⟨47, _⟩ => ⟨S_, .i32⟩
  | .hbm, ⟨48, _⟩ => ⟨S4, .i32⟩
  | .hbm, ⟨49, _⟩ => ⟨S4, .i1⟩
  | .hbm, ⟨50, _⟩ => ⟨S_, .i32⟩
  | .hbm, ⟨51, _⟩ => ⟨S4, .i32⟩
  | .hbm, ⟨52, _⟩ => ⟨S4, .i32⟩
  | .hbm, ⟨53, _⟩ => ⟨S4, .i32⟩
  | .hbm, ⟨54, _⟩ => ⟨S_, .i32⟩
  | .hbm, ⟨55, _⟩ => ⟨S8x8x8x8x4, .i32⟩
  | .hbm, ⟨56, _⟩ => ⟨S8x8x8x8x4, .i1⟩
  | .hbm, ⟨57, _⟩ => ⟨S_, .i32⟩
  | .hbm, ⟨58, _⟩ => ⟨S8x8x8x8x4, .i32⟩
  | .hbm, ⟨59, _⟩ => ⟨S8x8x8x8x4, .i32⟩
  | .hbm, ⟨60, _⟩ => ⟨S8x8x8x8x4, .i32⟩
  | .hbm, ⟨61, _⟩ => ⟨S8x8x8x8x4, .i32⟩
  | .hbm, ⟨62, _⟩ => ⟨S8x8x8x8x4x1, .i32⟩
  | .hbm, ⟨63, _⟩ => ⟨S8x8x8x8x4x1, .i32⟩
  | .hbm, ⟨64, _⟩ => ⟨S8x8x8x8x4x2, .i32⟩
  | .hbm, ⟨65, _⟩ => ⟨S8x8x8x8x4x16, .f32⟩
  | .hbm, ⟨66, _⟩ => ⟨S4096x64, .f32⟩
  | .hbm, ⟨67, _⟩ => ⟨S64x64, .f32⟩
  | .hbm, ⟨68, _⟩ => ⟨S64x64, .f32⟩
  | .hbm, ⟨69, _⟩ => ⟨S1x64, .f32⟩
  | .hbm, ⟨70, _⟩ => ⟨S1x64, .f32⟩
  | .hbm, ⟨71, _⟩ => ⟨S1x32, .f32⟩
  | .hbm, ⟨72, _⟩ => ⟨S256x4096x32, .f32⟩
  | .local _ .vmem, ⟨0, _⟩ => ⟨S64x64, .f32⟩
  | .local _ .vmem, ⟨1, _⟩ => ⟨S64x64, .f32⟩
  | .local _ .vmem, ⟨2, _⟩ => ⟨S128x64, .f32⟩
  | .local _ .vmem, ⟨3, _⟩ => ⟨S128x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S32x64, .f32⟩
  | .local _ .vmem, ⟨8, _⟩ => ⟨S1x64, .f32⟩
  | .local _ .vmem, ⟨9, _⟩ => ⟨S1x64, .f32⟩
  | .local _ .vmem, ⟨10, _⟩ => ⟨S1x32, .f32⟩
  | .local _ .vmem, ⟨11, _⟩ => ⟨S128x64x32, .f32⟩
  | .local _ .vmem, ⟨12, _⟩ => ⟨S128x64x32, .f32⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x64x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bcast_S_S8 : S_.BroadcastsInDim S8 (![] : Fin 0 → Fin S8.rank)
  bcast_S8_S8x8x8x8_0 : S8.BroadcastsInDim S8x8x8x8 (![0] : Fin 1 → Fin S8x8x8x8.rank)
  bcast_S8_S8x8x8x8_1 : S8.BroadcastsInDim S8x8x8x8 (![1] : Fin 1 → Fin S8x8x8x8.rank)
  bcast_S8_S8x8x8x8_2 : S8.BroadcastsInDim S8x8x8x8 (![2] : Fin 1 → Fin S8x8x8x8.rank)
  bcast_S8_S8x8x8x8_3 : S8.BroadcastsInDim S8x8x8x8 (![3] : Fin 1 → Fin S8x8x8x8.rank)
  bcast_S8x8x8x8_S1x8x8x8x8_1_2_3_4 : S8x8x8x8.BroadcastsInDim S1x8x8x8x8 (![1, 2, 3, 4] : Fin 4 → Fin S1x8x8x8x8.rank)
  concatenates_S1x8x8x8x8_S1x8x8x8x8_S1x8x8x8x8_S1x8x8x8x8_S4x8x8x8x8_d0 : Shape.Concatenates [S1x8x8x8x8, S1x8x8x8x8, S1x8x8x8x8, S1x8x8x8x8] S4x8x8x8x8 0
  transposes_S4x8x8x8x8_S8x8x8x8x4_4_3_2_1_0 : S4x8x8x8x8.Transposes [4, 3, 2, 1, 0] S8x8x8x8x4
  bcast_S_S4 : S_.BroadcastsInDim S4 (![] : Fin 0 → Fin S4.rank)
  bcast_S_S8x8x8x8x4 : S_.BroadcastsInDim S8x8x8x8x4 (![] : Fin 0 → Fin S8x8x8x8x4.rank)
  bcast_S4_S8x8x8x8x4_4 : S4.BroadcastsInDim S8x8x8x8x4 (![4] : Fin 1 → Fin S8x8x8x8x4.rank)
  bcast_S8x8x8x8x4_S8x8x8x8x4x1_0_1_2_3_4 : S8x8x8x8x4.BroadcastsInDim S8x8x8x8x4x1 (![0, 1, 2, 3, 4] : Fin 5 → Fin S8x8x8x8x4x1.rank)
  concatenates_S8x8x8x8x4x1_S8x8x8x8x4x1_S8x8x8x8x4x2_d5 : Shape.Concatenates [S8x8x8x8x4x1, S8x8x8x8x4x1] S8x8x8x8x4x2 5
  shapeCasts_S8x8x8x8x4x16_S4096x64 : S8x8x8x8x4x16.ShapeCasts S4096x64
  slices_S64x128_S64x64_0_0 : S64x128.Slices ![0, 0] S64x64
  slices_S64x128_S64x64_0_64 : S64x128.Slices ![0, 64] S64x64
  shapeCasts_S64_S1x64 : S64.ShapeCasts S1x64
  shapeCasts_S32_S1x32 : S32.ShapeCasts S1x32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S32x64_S32x64_0_0 : ∀ a, (![0, 0] : Fin 2 → Nat) a + S32x64.size a ≤ S32x64.size a
  h_S32x64 : 0 < S32x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  shapeCasts_S128x64_S128x1x64 : S128x64.ShapeCasts S128x1x64
  shapeCasts_S64x64_S1x64x64 : S64x64.ShapeCasts S1x64x64
  broadcasts_S128x1x64_S128x64x64 : S128x1x64.Broadcasts S128x64x64
  broadcasts_S1x64x64_S128x64x64 : S1x64x64.Broadcasts S128x64x64
  broadcasts_S1x1x64_S128x64x64 : S1x1x64.Broadcasts S128x64x64
  shapeCasts_S128x64x64_S8192x64 : S128x64x64.ShapeCasts S8192x64
  broadcasts_S1x64_S8192x64 : S1x64.Broadcasts S8192x64
  inb_S1x32_S1x32_0_0 : ∀ a, (![0, 0] : Fin 2 → Nat) a + S1x32.size a ≤ S1x32.size a
  h_S1x32 : 0 < S1x32.numel
  shapeCasts_S1x32_S1x32 : S1x32.ShapeCasts S1x32
  transposes_S32x64_p1_0_S64x32 : S32x64.Transposes [1, 0] S64x32
  broadcasts_S1x32_S8192x32 : S1x32.Broadcasts S8192x32
  shapeCasts_S8192x32_S128x64x32 : S8192x32.ShapeCasts S128x64x32
  inb_S128x64x32_S128x64x32_0_0_0 : ∀ a, (![0, 0, 0] : Fin 3 → Nat) a + S128x64x32.size a ≤ S128x64x32.size a
  h_S128x64x32 : 0 < S128x64x32.numel
  gather_S4x8x16_S8x8x8x8x4x2_S8x8x8x8x4x16_5_01_n_n_01_5_1116_wf : GatherDims.WF S4x8x16 S8x8x8x8x4x2 S8x8x8x8x4x16 [5] [0, 1] [] [0, 1] [] 5 ![1, 1, 16]
  dot_S64x64_S64x64_S64x64_1_0_0_1_n_n_wf : DotDims.WF S64x64 S64x64 S64x64 [1] [0] [0] [1] [] []
  dot_S128x64_S64x64_S128x64_1_0_0_1_n_n_wf : DotDims.WF S128x64 S64x64 S128x64 [1] [0] [0] [1] [] []
  dot_S8192x64_S64x64_S8192x64_1_0_0_1_n_n_wf : DotDims.WF S8192x64 S64x64 S8192x64 [1] [0] [0] [1] [] []
  dot_S8192x64_S64x32_S8192x32_1_0_0_1_n_n_wf : DotDims.WF S8192x64 S64x32 S8192x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64.size a ≤ S4096x64.size a
  hwx0_0 : ∀ i : grid0.Coords, EltTy.bits .f32 = 32 ∨ (Rect.block (s := S4096x64) S64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S256x64.size a
  hwx0_1 : ∀ i : grid0.Coords, EltTy.bits .f32 = 32 ∨ (Rect.block (s := S256x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x64x32.size a ≤ S256x4096x32.size a
  hwx0_9 : ∀ i : grid0.Coords, EltTy.bits .f32 = 32 ∨ (Rect.block (s := S256x4096x32) S128x64x32.size (cc0_transform_9 i) (hinb0_9 i)).WholeWords (EltTy.packing .f32)

variable [Facts₀]

def gather_S4x8x16_S8x8x8x8x4x2_S8x8x8x8x4x16_5_01_n_n_01_5_1116 : GatherDims S4x8x16 S8x8x8x8x4x2 S8x8x8x8x4x16 where
  offsetDims := [5]
  collapsedSliceDims := [0, 1]
  operandBatchingDims := []
  startIndicesBatchingDims := []
  startIndexMap := [0, 1]
  indexVectorDim := 5
  sliceSizes := ![1, 1, 16]
  wf := gather_S4x8x16_S8x8x8x8x4x2_S8x8x8x8x4x16_5_01_n_n_01_5_1116_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf

abbrev win0_0 : Pipeline.Window sig grid0 :=
  Pipeline.Window.ofSpec (Memref.whole main_v46) S64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v49) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v50) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v51) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v52) S128x64x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S256x64 : Shape := ⟨2, ![256, 64]⟩
abbrev S4x8x16 : Shape := ⟨3, ![4, 8, 16]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S8 : Shape := ⟨1, ![8]⟩
abbrev S_ : Shape := ⟨0, ![]⟩
abbrev S8x8x8x8 : Shape := ⟨4, ![8, 8, 8, 8]⟩
abbrev S1x8x8x8x8 : Shape := ⟨5, ![1, 8, 8, 8, 8]⟩
abbrev S4x8x8x8x8 : Shape := ⟨5, ![4, 8, 8, 8, 8]⟩
abbrev S4 : Shape := ⟨1, ![4]⟩
abbrev S8x8x8x8x4 : Shape := ⟨5, ![8, 8, 8, 8, 4]⟩
abbrev S8x8x8x8x4x1 : Shape := ⟨6, ![8, 8, 8, 8, 4, 1]⟩
abbrev S8x8x8x8x4x2 : Shape := ⟨6, ![8, 8, 8, 8, 4, 2]⟩
abbrev S8x8x8x8x4x16 : Shape := ⟨6, ![8, 8, 8, 8, 4, 16]⟩
abbrev S4096x64 : Shape := ⟨2, ![4096, 64]⟩
abbrev S256x1x64 : Shape := ⟨3, ![256, 1, 64]⟩
abbrev S256x4096x64 : Shape := ⟨3, ![256, 4096, 64]⟩
abbrev S1x4096x64 : Shape := ⟨3, ![1, 4096, 64]⟩
abbrev S256x4096x128 : Shape := ⟨3, ![256, 4096, 128]⟩
abbrev S1x1x64 : Shape := ⟨3, ![1, 1, 64]⟩
abbrev S256x4096x32 : Shape := ⟨3, ![256, 4096, 32]⟩
abbrev S1x1x32 : Shape := ⟨3, ![1, 1, 32]⟩

abbrev nBuf : Space → Nat
  | .hbm => 90
  | .vmem => 0
  | .smem => 0
  | _ => 0

abbrev bufTy : (tb : Table) → Fin (tcTables nBuf tb) → BufTy
  | .hbm, ⟨0, _⟩ => ⟨S256x64, .f32⟩
  | .hbm, ⟨1, _⟩ => ⟨S4x8x16, .f32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S32x64, .f32⟩
  | .hbm, ⟨7, _⟩ => ⟨S32, .f32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S_, .i32⟩
  | .hbm, ⟨34, _⟩ => ⟨S8, .i32⟩
  | .hbm, ⟨35, _⟩ => ⟨S8, .i32⟩
  | .hbm, ⟨36, _⟩ => ⟨S8x8x8x8, .i32⟩
  | .hbm, ⟨37, _⟩ => ⟨S8x8x8x8, .i32⟩
  | .hbm, ⟨38, _⟩ => ⟨S8x8x8x8, .i32⟩
  | .hbm, ⟨39, _⟩ => ⟨S8x8x8x8, .i32⟩
  | .hbm, ⟨40, _⟩ => ⟨S1x8x8x8x8, .i32⟩
  | .hbm, ⟨41, _⟩ => ⟨S1x8x8x8x8, .i32⟩
  | .hbm, ⟨42, _⟩ => ⟨S1x8x8x8x8, .i32⟩
  | .hbm, ⟨43, _⟩ => ⟨S1x8x8x8x8, .i32⟩
  | .hbm, ⟨44, _⟩ => ⟨S4x8x8x8x8, .i32⟩
  | .hbm, ⟨45, _⟩ => ⟨S4, .i32⟩
  | .hbm, ⟨46, _⟩ => ⟨S8x8x8x8x4, .i32⟩
  | .hbm, ⟨47, _⟩ => ⟨S_, .i32⟩
  | .hbm, ⟨48, _⟩ => ⟨S4, .i32⟩
  | .hbm, ⟨49, _⟩ => ⟨S4, .i1⟩
  | .hbm, ⟨50, _⟩ => ⟨S_, .i32⟩
  | .hbm, ⟨51, _⟩ => ⟨S4, .i32⟩
  | .hbm, ⟨52, _⟩ => ⟨S4, .i32⟩
  | .hbm, ⟨53, _⟩ => ⟨S4, .i32⟩
  | .hbm, ⟨54, _⟩ => ⟨S_, .i32⟩
  | .hbm, ⟨55, _⟩ => ⟨S8x8x8x8x4, .i32⟩
  | .hbm, ⟨56, _⟩ => ⟨S8x8x8x8x4, .i1⟩
  | .hbm, ⟨57, _⟩ => ⟨S_, .i32⟩
  | .hbm, ⟨58, _⟩ => ⟨S8x8x8x8x4, .i32⟩
  | .hbm, ⟨59, _⟩ => ⟨S8x8x8x8x4, .i32⟩
  | .hbm, ⟨60, _⟩ => ⟨S8x8x8x8x4, .i32⟩
  | .hbm, ⟨61, _⟩ => ⟨S8x8x8x8x4, .i32⟩
  | .hbm, ⟨62, _⟩ => ⟨S8x8x8x8x4x1, .i32⟩
  | .hbm, ⟨63, _⟩ => ⟨S8x8x8x8x4x1, .i32⟩
  | .hbm, ⟨64, _⟩ => ⟨S8x8x8x8x4x2, .i32⟩
  | .hbm, ⟨65, _⟩ => ⟨S8x8x8x8x4x16, .f32⟩
  | .hbm, ⟨66, _⟩ => ⟨S4096x64, .f32⟩
  | .hbm, ⟨67, _⟩ => ⟨S256x1x64, .f32⟩
  | .hbm, ⟨68, _⟩ => ⟨S256x4096x64, .f32⟩
  | .hbm, ⟨69, _⟩ => ⟨S1x4096x64, .f32⟩
  | .hbm, ⟨70, _⟩ => ⟨S256x4096x64, .f32⟩
  | .hbm, ⟨71, _⟩ => ⟨S256x4096x128, .f32⟩
  | .hbm, ⟨72, _⟩ => ⟨S256x4096x64, .f32⟩
  | .hbm, ⟨73, _⟩ => ⟨S1x1x64, .f32⟩
  | .hbm, ⟨74, _⟩ => ⟨S256x4096x64, .f32⟩
  | .hbm, ⟨75, _⟩ => ⟨S256x4096x64, .f32⟩
  | .hbm, ⟨76, _⟩ => ⟨S_, .f32⟩
  | .hbm, ⟨77, _⟩ => ⟨S256x4096x64, .f32⟩
  | .hbm, ⟨78, _⟩ => ⟨S256x4096x64, .f32⟩
  | .hbm, ⟨79, _⟩ => ⟨S256x4096x64, .f32⟩
  | .hbm, ⟨80, _⟩ => ⟨S1x1x64, .f32⟩
  | .hbm, ⟨81, _⟩ => ⟨S256x4096x64, .f32⟩
  | .hbm, ⟨82, _⟩ => ⟨S256x4096x64, .f32⟩
  | .hbm, ⟨83, _⟩ => ⟨S_, .f32⟩
  | .hbm, ⟨84, _⟩ => ⟨S256x4096x64, .f32⟩
  | .hbm, ⟨85, _⟩ => ⟨S256x4096x64, .f32⟩
  | .hbm, ⟨86, _⟩ => ⟨S256x4096x32, .f32⟩
  | .hbm, ⟨87, _⟩ => ⟨S1x1x32, .f32⟩
  | .hbm, ⟨88, _⟩ => ⟨S256x4096x32, .f32⟩
  | .hbm, ⟨89, _⟩ => ⟨S256x4096x32, .f32⟩
  | _, _ => ⟨S256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call0_cst : Ref sig .tc := ⟨.hbm, 76, rfl⟩
abbrev main_call0_v0 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call1_cst : Ref sig .tc := ⟨.hbm, 83, rfl⟩
abbrev main_call1_v0 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x8x8x8_0 : S8.BroadcastsInDim S8x8x8x8 (![0] : Fin 1 → Fin S8x8x8x8.rank)
  bcast_S8_S8x8x8x8_1 : S8.BroadcastsInDim S8x8x8x8 (![1] : Fin 1 → Fin S8x8x8x8.rank)
  bcast_S8_S8x8x8x8_2 : S8.BroadcastsInDim S8x8x8x8 (![2] : Fin 1 → Fin S8x8x8x8.rank)
  bcast_S8_S8x8x8x8_3 : S8.BroadcastsInDim S8x8x8x8 (![3] : Fin 1 → Fin S8x8x8x8.rank)
  bcast_S8x8x8x8_S1x8x8x8x8_1_2_3_4 : S8x8x8x8.BroadcastsInDim S1x8x8x8x8 (![1, 2, 3, 4] : Fin 4 → Fin S1x8x8x8x8.rank)
  concatenates_S1x8x8x8x8_S1x8x8x8x8_S1x8x8x8x8_S1x8x8x8x8_S4x8x8x8x8_d0 : Shape.Concatenates [S1x8x8x8x8, S1x8x8x8x8, S1x8x8x8x8, S1x8x8x8x8] S4x8x8x8x8 0
  transposes_S4x8x8x8x8_S8x8x8x8x4_4_3_2_1_0 : S4x8x8x8x8.Transposes [4, 3, 2, 1, 0] S8x8x8x8x4
  bcast_S_S4 : S_.BroadcastsInDim S4 (![] : Fin 0 → Fin S4.rank)
  bcast_S_S8x8x8x8x4 : S_.BroadcastsInDim S8x8x8x8x4 (![] : Fin 0 → Fin S8x8x8x8x4.rank)
  bcast_S4_S8x8x8x8x4_4 : S4.BroadcastsInDim S8x8x8x8x4 (![4] : Fin 1 → Fin S8x8x8x8x4.rank)
  bcast_S8x8x8x8x4_S8x8x8x8x4x1_0_1_2_3_4 : S8x8x8x8x4.BroadcastsInDim S8x8x8x8x4x1 (![0, 1, 2, 3, 4] : Fin 5 → Fin S8x8x8x8x4x1.rank)
  concatenates_S8x8x8x8x4x1_S8x8x8x8x4x1_S8x8x8x8x4x2_d5 : Shape.Concatenates [S8x8x8x8x4x1, S8x8x8x8x4x1] S8x8x8x8x4x2 5
  shapeCasts_S8x8x8x8x4x16_S4096x64 : S8x8x8x8x4x16.ShapeCasts S4096x64
  bcast_S256x64_S256x1x64_0_2 : S256x64.BroadcastsInDim S256x1x64 (![0, 2] : Fin 2 → Fin S256x1x64.rank)
  bcast_S256x1x64_S256x4096x64_0_1_2 : S256x1x64.BroadcastsInDim S256x4096x64 (![0, 1, 2] : Fin 3 → Fin S256x4096x64.rank)
  bcast_S4096x64_S1x4096x64_1_2 : S4096x64.BroadcastsInDim S1x4096x64 (![1, 2] : Fin 2 → Fin S1x4096x64.rank)
  bcast_S1x4096x64_S256x4096x64_0_1_2 : S1x4096x64.BroadcastsInDim S256x4096x64 (![0, 1, 2] : Fin 3 → Fin S256x4096x64.rank)
  concatenates_S256x4096x64_S256x4096x64_S256x4096x128_d2 : Shape.Concatenates [S256x4096x64, S256x4096x64] S256x4096x128 2
  bcast_S64_S1x1x64_2 : S64.BroadcastsInDim S1x1x64 (![2] : Fin 1 → Fin S1x1x64.rank)
  bcast_S1x1x64_S256x4096x64_0_1_2 : S1x1x64.BroadcastsInDim S256x4096x64 (![0, 1, 2] : Fin 3 → Fin S256x4096x64.rank)
  bcast_S_S256x4096x64 : S_.BroadcastsInDim S256x4096x64 (![] : Fin 0 → Fin S256x4096x64.rank)
  bcast_S32_S1x1x32_2 : S32.BroadcastsInDim S1x1x32 (![2] : Fin 1 → Fin S1x1x32.rank)
  bcast_S1x1x32_S256x4096x32_0_1_2 : S1x1x32.BroadcastsInDim S256x4096x32 (![0, 1, 2] : Fin 3 → Fin S256x4096x32.rank)
  gather_S4x8x16_S8x8x8x8x4x2_S8x8x8x8x4x16_5_01_n_n_01_5_1116_wf : GatherDims.WF S4x8x16 S8x8x8x8x4x2 S8x8x8x8x4x16 [5] [0, 1] [] [0, 1] [] 5 ![1, 1, 16]
  dot_S256x4096x128_S64x128_S256x4096x64_2_1_01_0_n_n_wf : DotDims.WF S256x4096x128 S64x128 S256x4096x64 [2] [1] [0, 1] [0] [] []
  dot_S256x4096x64_S64x64_S256x4096x64_2_1_01_0_n_n_wf : DotDims.WF S256x4096x64 S64x64 S256x4096x64 [2] [1] [0, 1] [0] [] []
  dot_S256x4096x64_S32x64_S256x4096x32_2_1_01_0_n_n_wf : DotDims.WF S256x4096x64 S32x64 S256x4096x32 [2] [1] [0, 1] [0] [] []

variable [Facts₀]

def gather_S4x8x16_S8x8x8x8x4x2_S8x8x8x8x4x16_5_01_n_n_01_5_1116 : GatherDims S4x8x16 S8x8x8x8x4x2 S8x8x8x8x4x16 where
  offsetDims := [5]
  collapsedSliceDims := [0, 1]
  operandBatchingDims := []
  startIndicesBatchingDims := []
  startIndexMap := [0, 1]
  indexVectorDim := 5
  sliceSizes := ![1, 1, 16]
  wf := gather_S4x8x16_S8x8x8x8x4x2_S8x8x8x8x4x16_5_01_n_n_01_5_1116_wf
def dot_S256x4096x128_S64x128_S256x4096x64_2_1_01_0_n_n : DotDims S256x4096x128 S64x128 S256x4096x64 where
  lhsContracting := [2]
  rhsContracting := [1]
  lhsNonContracting := [0, 1]
  rhsNonContracting := [0]
  lhsBatch := []
  rhsBatch := []
  wf := dot_S256x4096x128_S64x128_S256x4096x64_2_1_01_0_n_n_wf
def dot_S256x4096x64_S64x64_S256x4096x64_2_1_01_0_n_n : DotDims S256x4096x64 S64x64 S256x4096x64 where
  lhsContracting := [2]
  rhsContracting := [1]
  lhsNonContracting := [0, 1]
  rhsNonContracting := [0]
  lhsBatch := []
  rhsBatch := []
  wf := dot_S256x4096x64_S64x64_S256x4096x64_2_1_01_0_n_n_wf
def dot_S256x4096x64_S32x64_S256x4096x32_2_1_01_0_n_n : DotDims S256x4096x64 S32x64 S256x4096x32 where
  lhsContracting := [2]
  rhsContracting := [1]
  lhsNonContracting := [0, 1]
  rhsNonContracting := [0]
  lhsBatch := []
  rhsBatch := []
  wf := dot_S256x4096x64_S32x64_S256x4096x32_2_1_01_0_n_n_wf

class Facts : Prop extends Facts₀ where

variable [Facts]
-- ==== Proof.KernelFrame.lean ====
/-
  The pipelined region of this program runs to its end, and what it leaves in memory.

  The program first computes, on the host, the table of latent rows (integer index arithmetic, a gather, a reshape), the
  two halves of the first layer's weights (two slices) and the three biases as one-row arrays; then one region runs
  the network's body at each of the 2 × 64 grid points: point (bi, ci) is handed block ci of the latent table (64 rows),
  block bi of the features (128 rows) and the seven small arrays whole, and stores ONE value, a function of those nine
  blocks alone, over its whole [128, 64, 32] output block, which is written back to block (bi, ci, 0) of the result.
  The body also loads its output block before storing over it; nothing reads the loaded value, so what the block held
  before does not matter.

  Stated here, for either float instance: the contents of every buffer when the region is entered (`V`: the launch
  memory after the host operations; no host operation writes an argument array); each window's block at a point
  (`blockAt`); what the body leaves in the output block (`stored`), by running the body symbolically (`runBody`); the
  region's proof data (`data`) and its obligation at a generic point; the run (`regionRun`), whose post has the
  result array at what the write-backs computed and every other array as the region found it; and from it the frame:
  every weakly fair execution ends, nothing faults, the eight argument arrays end unchanged.
-/
import proofs.«145024_j25271587570218_1_alg».proof.Proof.Gen.Kernel.Launch
import proofs.«145024_j25271587570218_1_alg».proof.Proof.Gen.Kernel.Skeleton
import proofs.«145024_j25271587570218_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch memory after the 64 host operations. -/
abbrev V (c : Dev nD) (b : Ref sig .tc) : Buf (Elt F) ((c : Thread nD τ).loc b) :=
  StableHlo.after hostOps0 (fun b => m (c, b)) b

/-- None of them allocates a buffer. -/
theorem hostOps0_fresh : (hostOps0 : List (HloOp τ sig (Elt F))).Forall fun op => op.fresh = ∅ := by
  simp only [List.Forall]; repeat' constructor

/-- The program is those host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 1000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the pipeline fetched it there or
    not (where it did not, the block index has not moved since the last fetch), for any proof data whose arrays are
    the region-entry contents and whose body leaves the input buffers as found. -/
theorem found0_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found4_of {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found5_of {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem found6_of {c : Dev nD} (dat : Dat τ (Elt F) Unit ℕ (UR sig nD τ) ℕ cfg0 c) (hA : dat.A 6 = V m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem found7_of {c : Dev nD} (dat : Dat τ (Elt F) Unit ℕ (UR sig nD τ) ℕ cfg0 c) (hA : dat.A 7 = V m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem found8_of {c : Dev nD} (dat : Dat τ (Elt F) Unit ℕ (UR sig nD τ) ℕ cfg0 c) (hA : dat.A 8 = V m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

abbrev r64x64 : Rect S64x64 := Rect.unit (s := S64x64) ![0, 0] S64x64.size inb_S64x64_S64x64_0_0
abbrev r128x64 : Rect S128x64 := Rect.unit (s := S128x64) ![0, 0] S128x64.size inb_S128x64_S128x64_0_0
abbrev r32x64 : Rect S32x64 := Rect.unit (s := S32x64) ![0, 0] S32x64.size inb_S32x64_S32x64_0_0
abbrev r1x64 : Rect S1x64 := Rect.unit (s := S1x64) ![0, 0] S1x64.size inb_S1x64_S1x64_0_0
abbrev r1x32 : Rect S1x32 := Rect.unit (s := S1x32) ![0, 0] S1x32.size inb_S1x32_S1x32_0_0
abbrev rOut : Rect S128x64x32 := Rect.unit (s := S128x64x32) ![0, 0, 0] S128x64x32.size inb_S128x64x32_S128x64x32_0_0_0

/-- The output block after the body, from the nine input blocks: its one store, of the network's value on the whole
    loaded blocks. -/
def stored (x0 : Vec F S64x64 .f32) (x1 : Vec F S128x64 .f32) (x2 : Vec F S64x64 .f32) (x3 : Vec F S64x64 .f32) (x4 : Vec F S64x64 .f32) (x5 : Vec F S32x64 .f32) (x6 : Vec F S1x64 .f32) (x7 : Vec F S1x64 .f32) (x8 : Vec F S1x32 .f32) : Vec F S128x64x32 .f32 :=
  View.canon [⟨rOut, k0_pay1 (k0_pay2 (View.ld x5 r32x64))
    (k0_pay3 (View.ld x0 r64x64) (View.ld x1 r128x64) (View.ld x2 r64x64) (View.ld x3 r64x64) (View.ld x4 r64x64) (View.ld x6 r1x64))
    (k0_pay4 (View.ld x7 r1x64)) (View.ld x8 r1x32)⟩]

/-- The one store covers the output block. -/
theorem stored_cover (p0 : Vec F S128x64x32 .f32) (y : S128x64x32.Idx) :
    ∃ pc ∈ ([⟨rOut, p0⟩] : List (View.Piece (Elt F) S128x64x32 .f32)), y ∈ pc.1.set :=
  View.cover_of_tiled [⟨rOut, p0⟩] S128x64x32.size (by rfl) y

/-! ## The body, run -/

set_option maxHeartbeats 4000000 in
/-- On whole staging buffers, the nine inputs' at contents `x0 … x8` and the output's at anything, the body runs to its
    end leaving the inputs' as they were and the output's at `stored` of the inputs'. -/
theorem runBody (c : Dev nD) (E : Set ℕ) (i : grid0.Coords) (arg2 : Memref sig .tc .vmem S64x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S32x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x32 .f32) (harg10 : arg10.IsWhole) (arg11 : Memref sig .tc .vmem S128x64x32 .f32) (harg11 : arg11.IsWhole)
    (x0 : Vec F S64x64 .f32) (x1 : Vec F S128x64 .f32) (x2 : Vec F S64x64 .f32) (x3 : Vec F S64x64 .f32) (x4 : Vec F S64x64 .f32) (x5 : Vec F S32x64 .f32) (x6 : Vec F S1x64 .f32) (x7 : Vec F S1x64 .f32) (x8 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (stored x0 x1 x2 x3 x4 x5 x6 x7 x8)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (stored_cover _)

/-! ## The region's proof data -/

/-- On core `c`: the arrays as the region finds them; after the body at point `t` each input buffer at its block and the
    output buffer at `stored` of the nine input blocks; the invariant the scoped rest and the generator register,
    untouched; nothing owed; full shares. -/
def data (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => stored (blockAt m c 0 t) (blockAt m c 1 t) (blockAt m c 2 t) (blockAt m c 3 t) (blockAt m c 4 t) (blockAt m c 5 t) (blockAt m c 6 t) (blockAt m c 7 t) (blockAt m c 8 t)
  Φ _ := Pipeline.ΦA spec0 c
  q _ := fullShare
  owed _ := 0

theorem A_eq (c : Dev nD) (w : Fin cfg0.W) : (data m 0 c).A w = V m c (Pipeline.arrRef spec0 w) := by
  dsimp only [data]

theorem after0 (c : Dev nD) (t : Fin cfg0.N) : (data m 0 c).after 0 t = blockAt m c 0 t := by dsimp only [data]
theorem after1 (c : Dev nD) (t : Fin cfg0.N) : (data m 0 c).after 1 t = blockAt m c 1 t := by dsimp only [data]
theorem after2 (c : Dev nD) (t : Fin cfg0.N) : (data m 0 c).after 2 t = blockAt m c 2 t := by dsimp only [data]
theorem after3 (c : Dev nD) (t : Fin cfg0.N) : (data m 0 c).after 3 t = blockAt m c 3 t := by dsimp only [data]
theorem after4 (c : Dev nD) (t : Fin cfg0.N) : (data m 0 c).after 4 t = blockAt m c 4 t := by dsimp only [data]
theorem after5 (c : Dev nD) (t : Fin cfg0.N) : (data m 0 c).after 5 t = blockAt m c 5 t := by dsimp only [data]
theorem after6 (c : Dev nD) (t : Fin cfg0.N) : (data m 0 c).after 6 t = blockAt m c 6 t := by dsimp only [data]
theorem after7 (c : Dev nD) (t : Fin cfg0.N) : (data m 0 c).after 7 t = blockAt m c 7 t := by dsimp only [data]
theorem after8 (c : Dev nD) (t : Fin cfg0.N) : (data m 0 c).after 8 t = blockAt m c 8 t := by dsimp only [data]
theorem after9 (c : Dev nD) (t : Fin cfg0.N) : (data m 0 c).after 9 t = stored (blockAt m c 0 t) (blockAt m c 1 t) (blockAt m c 2 t) (blockAt m c 3 t) (blockAt m c 4 t) (blockAt m c 5 t) (blockAt m c 6 t) (blockAt m c 7 t) (blockAt m c 8 t) := by dsimp only [data]

theorem found0 (c : Dev nD) (t : Fin cfg0.N) (d) : (data m 0 c).before 0 t d = blockAt m c 0 t :=
  found0_of m (data m 0 c) (A_eq m c 0) (after0 m c) t d
theorem found1 (c : Dev nD) (t : Fin cfg0.N) (d) : (data m 0 c).before 1 t d = blockAt m c 1 t :=
  found1_of m (data m 0 c) (A_eq m c 1) (after1 m c) t d
theorem found2 (c : Dev nD) (t : Fin cfg0.N) (d) : (data m 0 c).before 2 t d = blockAt m c 2 t :=
  found2_of m (data m 0 c) (A_eq m c 2) (after2 m c) t d
theorem found3 (c : Dev nD) (t : Fin cfg0.N) (d) : (data m 0 c).before 3 t d = blockAt m c 3 t :=
  found3_of m (data m 0 c) (A_eq m c 3) (after3 m c) t d
theorem found4 (c : Dev nD) (t : Fin cfg0.N) (d) : (data m 0 c).before 4 t d = blockAt m c 4 t :=
  found4_of m (data m 0 c) (A_eq m c 4) (after4 m c) t d
theorem found5 (c : Dev nD) (t : Fin cfg0.N) (d) : (data m 0 c).before 5 t d = blockAt m c 5 t :=
  found5_of m (data m 0 c) (A_eq m c 5) (after5 m c) t d
theorem found6 (c : Dev nD) (t : Fin cfg0.N) (d) : (data m 0 c).before 6 t d = blockAt m c 6 t :=
  found6_of m (data m 0 c) (A_eq m c 6) (after6 m c) t d
theorem found7 (c : Dev nD) (t : Fin cfg0.N) (d) : (data m 0 c).before 7 t d = blockAt m c 7 t :=
  found7_of m (data m 0 c) (A_eq m c 7) (after7 m c) t d
theorem found8 (c : Dev nD) (t : Fin cfg0.N) (d) : (data m 0 c).before 8 t d = blockAt m c 8 t :=
  found8_of m (data m 0 c) (A_eq m c 8) (after8 m c) t d

/-! ## The obligation at a generic point -/

/-- What the body is handed at point `t`, -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare ((data m 0 c).before 9 t d)))

/-- and what it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t)
    ∗ owns (c : Thread nD τ) (st0_9 t) fullShare ((data m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7, found8]
  rw [show (data m 0 c).Φ t.succ = (data m 0 c).Φ t.castSucc from rfl,
    show (data m 0 c).owesAt () t.succ = (data m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runBody c Set.univ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (data (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution terminates, and every final state has each array of
    the pipeline at what the write-backs computed from the proof data and every other unscoped buffer as the region
    found it. -/
theorem regionRun : θ_run defs (onTc (τ := τ) (main (F := F))) (s₀ m ρ) (Pipeline.FramePost cfgs (data m) 0 (V m)) :=
  Pipeline.θ_run_frame cfgs (data m) (0 : Fin 1) launch0 defs₀ Variants.none m ρ main
    (hbody := fun c => (body_obligation m c).loose) (hshare := fun c => (data m 0 c).share_full fun _ => rfl)
    (howed := fun _ _ => rfl) (V := V m) (hmain := hmain m Variants.none) (hA := A_eq m) (hΦ := fun _ _ => rfl)

/-- The result array after the run is what the write-backs made of it. -/
theorem post_result (r : PUnit × MemSt nD τ sig (Elt F)) (h : Pipeline.FramePost cfgs (data m) 0 (V m) r) (c : Dev nD) :
    r.2.mem ((c.tc : Thread nD τ).loc main_v52) = (data m 0 c).arrAt 9 cfg0.N := (h c).1 9

/-- The eight argument arrays after the run are the launch memory's: three are staged by input windows, five are
    read by host operations only. -/
theorem post_args (r : PUnit × MemSt nD τ sig (Elt F)) (h : Pipeline.FramePost cfgs (data m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 1).trans (((data m 0 c).arrAt_in 1 rfl _).trans ((A_eq m c 1).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 4).trans (((data m 0 c).arrAt_in 4 rfl _).trans ((A_eq m c 4).trans (V_main_arg4 m c))),
    ((h c).2 main_arg5 (Pipeline.mem_restRefs_of main_arg5 (by decide) (by decide))).trans (V_main_arg5 m c),
    ((h c).1 5).trans (((data m 0 c).arrAt_in 5 rfl _).trans ((A_eq m c 5).trans (V_main_arg6 m c))),
    ((h c).2 main_arg7 (Pipeline.mem_restRefs_of main_arg7 (by decide) (by decide))).trans (V_main_arg7 m c)⟩

/-- THE FRAME, at either float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => post_args m r h c) (regionRun m ρ)

end Cert.Kernel.Frame

end
-- ==== Proof.KernelIdealFrame.lean ====
/-
  The pipelined region of this program runs to its end, and what it leaves in memory.

  The program first computes, on the host, the table of latent rows (integer index arithmetic, a gather, a reshape), the
  two halves of the first layer's weights (two slices) and the three biases as one-row arrays; then one region runs
  the network's body at each of the 2 × 64 grid points: point (bi, ci) is handed block ci of the latent table (64 rows),
  block bi of the features (128 rows) and the seven small arrays whole, and stores ONE value, a function of those nine
  blocks alone, over its whole [128, 64, 32] output block, which is written back to block (bi, ci, 0) of the result.
  The body also loads its output block before storing over it; nothing reads the loaded value, so what the block held
  before does not matter.

  Stated here, for either float instance: the contents of every buffer when the region is entered (`V`: the launch
  memory after the host operations; no host operation writes an argument array); each window's block at a point
  (`blockAt`); what the body leaves in the output block (`stored`), by running the body symbolically (`runBody`); the
  region's proof data (`data`) and its obligation at a generic point; the run (`regionRun`), whose post has the
  result array at what the write-backs computed and every other array as the region found it; and from it the frame:
  every weakly fair execution ends, nothing faults, the eight argument arrays end unchanged.
-/
import proofs.«145024_j25271587570218_1_alg».proof.Proof.Gen.KernelIdeal.Launch
import proofs.«145024_j25271587570218_1_alg».proof.Proof.Gen.KernelIdeal.Skeleton
import proofs.«145024_j25271587570218_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch memory after the 64 host operations. -/
abbrev V (c : Dev nD) (b : Ref sig .tc) : Buf (Elt F) ((c : Thread nD τ).loc b) :=
  StableHlo.after hostOps0 (fun b => m (c, b)) b

/-- None of them allocates a buffer. -/
theorem hostOps0_fresh : (hostOps0 : List (HloOp τ sig (Elt F))).Forall fun op => op.fresh = ∅ := by
  simp only [List.Forall]; repeat' constructor

/-- The program is those host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 1000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the pipeline fetched it there or
    not (where it did not, the block index has not moved since the last fetch), for any proof data whose arrays are
    the region-entry contents and whose body leaves the input buffers as found. -/
theorem found0_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found4_of {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found5_of {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem found6_of {c : Dev nD} (dat : Dat τ (Elt F) Unit ℕ (UR sig nD τ) ℕ cfg0 c) (hA : dat.A 6 = V m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem found7_of {c : Dev nD} (dat : Dat τ (Elt F) Unit ℕ (UR sig nD τ) ℕ cfg0 c) (hA : dat.A 7 = V m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem found8_of {c : Dev nD} (dat : Dat τ (Elt F) Unit ℕ (UR sig nD τ) ℕ cfg0 c) (hA : dat.A 8 = V m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

abbrev r64x64 : Rect S64x64 := Rect.unit (s := S64x64) ![0, 0] S64x64.size inb_S64x64_S64x64_0_0
abbrev r128x64 : Rect S128x64 := Rect.unit (s := S128x64) ![0, 0] S128x64.size inb_S128x64_S128x64_0_0
abbrev r32x64 : Rect S32x64 := Rect.unit (s := S32x64) ![0, 0] S32x64.size inb_S32x64_S32x64_0_0
abbrev r1x64 : Rect S1x64 := Rect.unit (s := S1x64) ![0, 0] S1x64.size inb_S1x64_S1x64_0_0
abbrev r1x32 : Rect S1x32 := Rect.unit (s := S1x32) ![0, 0] S1x32.size inb_S1x32_S1x32_0_0
abbrev rOut : Rect S128x64x32 := Rect.unit (s := S128x64x32) ![0, 0, 0] S128x64x32.size inb_S128x64x32_S128x64x32_0_0_0

/-- The output block after the body, from the nine input blocks: its one store, of the network's value on the whole
    loaded blocks. -/
def stored (x0 : Vec F S64x64 .f32) (x1 : Vec F S128x64 .f32) (x2 : Vec F S64x64 .f32) (x3 : Vec F S64x64 .f32) (x4 : Vec F S64x64 .f32) (x5 : Vec F S32x64 .f32) (x6 : Vec F S1x64 .f32) (x7 : Vec F S1x64 .f32) (x8 : Vec F S1x32 .f32) : Vec F S128x64x32 .f32 :=
  View.canon [⟨rOut, k0_pay1 (k0_pay2 (View.ld x5 r32x64))
    (k0_pay3 (View.ld x0 r64x64) (View.ld x1 r128x64) (View.ld x2 r64x64) (View.ld x3 r64x64) (View.ld x4 r64x64) (View.ld x6 r1x64))
    (k0_pay4 (View.ld x7 r1x64)) (View.ld x8 r1x32)⟩]

/-- The one store covers the output block. -/
theorem stored_cover (p0 : Vec F S128x64x32 .f32) (y : S128x64x32.Idx) :
    ∃ pc ∈ ([⟨rOut, p0⟩] : List (View.Piece (Elt F) S128x64x32 .f32)), y ∈ pc.1.set :=
  View.cover_of_tiled [⟨rOut, p0⟩] S128x64x32.size (by rfl) y

/-! ## The body, run -/

set_option maxHeartbeats 4000000 in
/-- On whole staging buffers, the nine inputs' at contents `x0 … x8` and the output's at anything, the body runs to its
    end leaving the inputs' as they were and the output's at `stored` of the inputs'. -/
theorem runBody (c : Dev nD) (E : Set ℕ) (i : grid0.Coords) (arg2 : Memref sig .tc .vmem S64x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S32x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x32 .f32) (harg10 : arg10.IsWhole) (arg11 : Memref sig .tc .vmem S128x64x32 .f32) (harg11 : arg11.IsWhole)
    (x0 : Vec F S64x64 .f32) (x1 : Vec F S128x64 .f32) (x2 : Vec F S64x64 .f32) (x3 : Vec F S64x64 .f32) (x4 : Vec F S64x64 .f32) (x5 : Vec F S32x64 .f32) (x6 : Vec F S1x64 .f32) (x7 : Vec F S1x64 .f32) (x8 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (stored x0 x1 x2 x3 x4 x5 x6 x7 x8)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (stored_cover _)

/-! ## The region's proof data -/

/-- On core `c`: the arrays as the region finds them; after the body at point `t` each input buffer at its block and the
    output buffer at `stored` of the nine input blocks; the invariant the scoped rest and the generator register,
    untouched; nothing owed; full shares. -/
def data (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => stored (blockAt m c 0 t) (blockAt m c 1 t) (blockAt m c 2 t) (blockAt m c 3 t) (blockAt m c 4 t) (blockAt m c 5 t) (blockAt m c 6 t) (blockAt m c 7 t) (blockAt m c 8 t)
  Φ _ := Pipeline.ΦA spec0 c
  q _ := fullShare
  owed _ := 0

theorem A_eq (c : Dev nD) (w : Fin cfg0.W) : (data m 0 c).A w = V m c (Pipeline.arrRef spec0 w) := by
  dsimp only [data]

theorem after0 (c : Dev nD) (t : Fin cfg0.N) : (data m 0 c).after 0 t = blockAt m c 0 t := by dsimp only [data]
theorem after1 (c : Dev nD) (t : Fin cfg0.N) : (data m 0 c).after 1 t = blockAt m c 1 t := by dsimp only [data]
theorem after2 (c : Dev nD) (t : Fin cfg0.N) : (data m 0 c).after 2 t = blockAt m c 2 t := by dsimp only [data]
theorem after3 (c : Dev nD) (t : Fin cfg0.N) : (data m 0 c).after 3 t = blockAt m c 3 t := by dsimp only [data]
theorem after4 (c : Dev nD) (t : Fin cfg0.N) : (data m 0 c).after 4 t = blockAt m c 4 t := by dsimp only [data]
theorem after5 (c : Dev nD) (t : Fin cfg0.N) : (data m 0 c).after 5 t = blockAt m c 5 t := by dsimp only [data]
theorem after6 (c : Dev nD) (t : Fin cfg0.N) : (data m 0 c).after 6 t = blockAt m c 6 t := by dsimp only [data]
theorem after7 (c : Dev nD) (t : Fin cfg0.N) : (data m 0 c).after 7 t = blockAt m c 7 t := by dsimp only [data]
theorem after8 (c : Dev nD) (t : Fin cfg0.N) : (data m 0 c).after 8 t = blockAt m c 8 t := by dsimp only [data]
theorem after9 (c : Dev nD) (t : Fin cfg0.N) : (data m 0 c).after 9 t = stored (blockAt m c 0 t) (blockAt m c 1 t) (blockAt m c 2 t) (blockAt m c 3 t) (blockAt m c 4 t) (blockAt m c 5 t) (blockAt m c 6 t) (blockAt m c 7 t) (blockAt m c 8 t) := by dsimp only [data]

theorem found0 (c : Dev nD) (t : Fin cfg0.N) (d) : (data m 0 c).before 0 t d = blockAt m c 0 t :=
  found0_of m (data m 0 c) (A_eq m c 0) (after0 m c) t d
theorem found1 (c : Dev nD) (t : Fin cfg0.N) (d) : (data m 0 c).before 1 t d = blockAt m c 1 t :=
  found1_of m (data m 0 c) (A_eq m c 1) (after1 m c) t d
theorem found2 (c : Dev nD) (t : Fin cfg0.N) (d) : (data m 0 c).before 2 t d = blockAt m c 2 t :=
  found2_of m (data m 0 c) (A_eq m c 2) (after2 m c) t d
theorem found3 (c : Dev nD) (t : Fin cfg0.N) (d) : (data m 0 c).before 3 t d = blockAt m c 3 t :=
  found3_of m (data m 0 c) (A_eq m c 3) (after3 m c) t d
theorem found4 (c : Dev nD) (t : Fin cfg0.N) (d) : (data m 0 c).before 4 t d = blockAt m c 4 t :=
  found4_of m (data m 0 c) (A_eq m c 4) (after4 m c) t d
theorem found5 (c : Dev nD) (t : Fin cfg0.N) (d) : (data m 0 c).before 5 t d = blockAt m c 5 t :=
  found5_of m (data m 0 c) (A_eq m c 5) (after5 m c) t d
theorem found6 (c : Dev nD) (t : Fin cfg0.N) (d) : (data m 0 c).before 6 t d = blockAt m c 6 t :=
  found6_of m (data m 0 c) (A_eq m c 6) (after6 m c) t d
theorem found7 (c : Dev nD) (t : Fin cfg0.N) (d) : (data m 0 c).before 7 t d = blockAt m c 7 t :=
  found7_of m (data m 0 c) (A_eq m c 7) (after7 m c) t d
theorem found8 (c : Dev nD) (t : Fin cfg0.N) (d) : (data m 0 c).before 8 t d = blockAt m c 8 t :=
  found8_of m (data m 0 c) (A_eq m c 8) (after8 m c) t d

/-! ## The obligation at a generic point -/

/-- What the body is handed at point `t`, -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare ((data m 0 c).before 9 t d)))

/-- and what it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t)
    ∗ owns (c : Thread nD τ) (st0_9 t) fullShare ((data m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7, found8]
  rw [show (data m 0 c).Φ t.succ = (data m 0 c).Φ t.castSucc from rfl,
    show (data m 0 c).owesAt () t.succ = (data m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runBody c Set.univ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (data (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution terminates, and every final state has each array of
    the pipeline at what the write-backs computed from the proof data and every other unscoped buffer as the region
    found it. -/
theorem regionRun : θ_run defs (onTc (τ := τ) (main (F := F))) (s₀ m ρ) (Pipeline.FramePost cfgs (data m) 0 (V m)) :=
  Pipeline.θ_run_frame cfgs (data m) (0 : Fin 1) launch0 defs₀ Variants.none m ρ main
    (hbody := fun c => (body_obligation m c).loose) (hshare := fun c => (data m 0 c).share_full fun _ => rfl)
    (howed := fun _ _ => rfl) (V := V m) (hmain := hmain m Variants.none) (hA := A_eq m) (hΦ := fun _ _ => rfl)

/-- The result array after the run is what the write-backs made of it. -/
theorem post_result (r : PUnit × MemSt nD τ sig (Elt F)) (h : Pipeline.FramePost cfgs (data m) 0 (V m) r) (c : Dev nD) :
    r.2.mem ((c.tc : Thread nD τ).loc main_v52) = (data m 0 c).arrAt 9 cfg0.N := (h c).1 9

/-- The eight argument arrays after the run are the launch memory's: three are staged by input windows, five are
    read by host operations only. -/
theorem post_args (r : PUnit × MemSt nD τ sig (Elt F)) (h : Pipeline.FramePost cfgs (data m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 1).trans (((data m 0 c).arrAt_in 1 rfl _).trans ((A_eq m c 1).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 4).trans (((data m 0 c).arrAt_in 4 rfl _).trans ((A_eq m c 4).trans (V_main_arg4 m c))),
    ((h c).2 main_arg5 (Pipeline.mem_restRefs_of main_arg5 (by decide) (by decide))).trans (V_main_arg5 m c),
    ((h c).1 5).trans (((data m 0 c).arrAt_in 5 rfl _).trans ((A_eq m c 5).trans (V_main_arg6 m c))),
    ((h c).2 main_arg7 (Pipeline.mem_restRefs_of main_arg7 (by decide) (by decide))).trans (V_main_arg7 m c)⟩

/-- THE FRAME, at either float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => post_args m r h c) (regionRun m ρ)

end Cert.KernelIdeal.Frame

end
-- ==== Proof.Spec.lean ====
/-
  The decoder's value, entry by entry, on the extended reals.

  For a batch of feature rows `phi` (one row of 64 per batch entry), a table `va` of latent rows (one row of 64 per
  combination of region choices), and three linear layers `(w1, b1)`, `(w2, b2)`, `(w3, b3)` whose weight arrays hold
  one ROW per output unit, the value at (batch entry `b`, combination `c`, output unit `o`) is

      out[b, c, o] = Σ_g relu2[b, c, g] · w3[o, g] + b3[o]
      relu2[b, c, g] = max (Σ_h relu1[b, c, h] · w2[g, h] + b2[g]) 0
      relu1[b, c, h] = max ((Σ_k phi[b, k] · w1[h, 64 + k] + Σ_k va[c, k] · w1[h, k]) + b1[h]) 0.

  The first layer acts on the row `va[c, ·]` followed by the row `phi[b, ·]` (128 entries); it is written here as the
  sum of the two half-products, the feature half first, which is the grouping a program that never forms the joined
  row computes. A program that joins the two rows and contracts all 128 positions at once computes the same number:
  a finite sum splits at any position and addition commutes, in any commutative additive monoid, so on the extended
  reals no entry need be finite (`first_layer_joined`).
-/
import Idealize.ShloMosaic.PureOps.Ideal
import Idealize.ShloMosaic.Lib.ValueIdx
import Mathlib.Algebra.BigOperators.Fin

noncomputable section

namespace Cert.Mlp

open Idealize.ShloMosaic Idealize.ShloMosaic.ValueIdx
open scoped BigOperators

/-- The float zero both rectifiers compare against, as its bit pattern's value. -/
abbrev zero : Ideal .f32 := Ideal.ofBits .f32 0x00000000#32

variable {B C : ℕ}

/-- The first layer before its rectifier, from one feature row and one latent row: the feature half-product, plus the
    latent half-product, plus the bias entry. -/
def pre1 (prow vrow : Fin 64 → Ideal .f32) (w1 : FVec Ideal ⟨2, ![64, 128]⟩ .f32) (b1 : FVec Ideal ⟨1, ![64]⟩ .f32)
    (h : Fin 64) : Ideal .f32 :=
  ((∑ k : Fin 64, prow k * w1 (ix2 h ⟨64 + k.val, by have := k.isLt; omega⟩))
    + ∑ k : Fin 64, vrow k * w1 (ix2 h ⟨k.val, by have := k.isLt; omega⟩)) + b1 (ix1 h)

/-- The second layer before its rectifier, from the first layer's rectified row. -/
def pre2 (r1 : Fin 64 → Ideal .f32) (w2 : FVec Ideal ⟨2, ![64, 64]⟩ .f32) (b2 : FVec Ideal ⟨1, ![64]⟩ .f32)
    (g : Fin 64) : Ideal .f32 :=
  (∑ h : Fin 64, r1 h * w2 (ix2 g h)) + b2 (ix1 g)

/-- The third layer, from the second layer's rectified row. -/
def lin3 (r2 : Fin 64 → Ideal .f32) (w3 : FVec Ideal ⟨2, ![32, 64]⟩ .f32) (b3 : FVec Ideal ⟨1, ![32]⟩ .f32)
    (o : Fin 32) : Ideal .f32 :=
  (∑ g : Fin 64, r2 g * w3 (ix2 o g)) + b3 (ix1 o)

/-- The whole network on one feature row and one latent row. -/
def net (prow vrow : Fin 64 → Ideal .f32) (w1 : FVec Ideal ⟨2, ![64, 128]⟩ .f32) (b1 : FVec Ideal ⟨1, ![64]⟩ .f32)
    (w2 : FVec Ideal ⟨2, ![64, 64]⟩ .f32) (b2 : FVec Ideal ⟨1, ![64]⟩ .f32)
    (w3 : FVec Ideal ⟨2, ![32, 64]⟩ .f32) (b3 : FVec Ideal ⟨1, ![32]⟩ .f32) (o : Fin 32) : Ideal .f32 :=
  lin3 (fun g => max (pre2 (fun h => max (pre1 prow vrow w1 b1 h) zero) w2 b2 g) zero) w3 b3 o

/-- THE RESULT ARRAY: entry `(b, c, o)` is the network on row `b` of `phi` and row `c` of `va`. -/
def result (phi : FVec Ideal ⟨2, ![B, 64]⟩ .f32) (va : FVec Ideal ⟨2, ![C, 64]⟩ .f32)
    (w1 : FVec Ideal ⟨2, ![64, 128]⟩ .f32) (b1 : FVec Ideal ⟨1, ![64]⟩ .f32)
    (w2 : FVec Ideal ⟨2, ![64, 64]⟩ .f32) (b2 : FVec Ideal ⟨1, ![64]⟩ .f32)
    (w3 : FVec Ideal ⟨2, ![32, 64]⟩ .f32) (b3 : FVec Ideal ⟨1, ![32]⟩ .f32) : FVec Ideal ⟨3, ![B, C, 32]⟩ .f32 := fun i =>
  net (fun k => phi (ix2 (⟨(i 0).val, (i 0).isLt⟩ : Fin B) k)) (fun k => va (ix2 (⟨(i 1).val, (i 1).isLt⟩ : Fin C) k))
    w1 b1 w2 b2 w3 b3 ⟨(i 2).val, (i 2).isLt⟩

theorem result_apply (phi : FVec Ideal ⟨2, ![B, 64]⟩ .f32) (va : FVec Ideal ⟨2, ![C, 64]⟩ .f32)
    (w1 : FVec Ideal ⟨2, ![64, 128]⟩ .f32) (b1 : FVec Ideal ⟨1, ![64]⟩ .f32)
    (w2 : FVec Ideal ⟨2, ![64, 64]⟩ .f32) (b2 : FVec Ideal ⟨1, ![64]⟩ .f32)
    (w3 : FVec Ideal ⟨2, ![32, 64]⟩ .f32) (b3 : FVec Ideal ⟨1, ![32]⟩ .f32) (b : Fin B) (c : Fin C) (o : Fin 32) :
    result phi va w1 b1 w2 b2 w3 b3 (ix3 b c o)
      = net (fun k => phi (ix2 b k)) (fun k => va (ix2 c k)) w1 b1 w2 b2 w3 b3 o := rfl

/-- THE LAW between the two spellings of the first layer: contracting the joined row (latent entries first, then the
    feature entries) against a weight row of 128 entries is the sum of the two half-products, in either order. -/
theorem first_layer_joined (prow vrow : Fin 64 → Ideal .f32) (x : Fin 128 → Ideal .f32)
    (hv : ∀ k : Fin 64, x ⟨k.val, by have := k.isLt; omega⟩ = vrow k)
    (hp : ∀ k : Fin 64, x ⟨64 + k.val, by have := k.isLt; omega⟩ = prow k)
    (w1 : FVec Ideal ⟨2, ![64, 128]⟩ .f32) (b1 : FVec Ideal ⟨1, ![64]⟩ .f32) (h : Fin 64) :
    (∑ i : Fin 128, x i * w1 (ix2 h i)) + b1 (ix1 h) = pre1 prow vrow w1 b1 h := by
  unfold pre1
  rw [show (∑ i : Fin 128, x i * w1 (ix2 h i))
      = ∑ i : Fin (64 + 64), x ⟨i.val, i.isLt⟩ * w1 (ix2 h (⟨i.val, i.isLt⟩ : Fin 128)) from rfl, Fin.sum_univ_add]
  simp only [Fin.val_castAdd, Fin.val_natAdd]
  rw [add_comm (∑ k : Fin 64, x ⟨k.val, _⟩ * _)]
  simp only [hv, hp]

end Cert.Mlp

end
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.LibUnitAxes.lean ====
/-
  Layout operations over UNIT AXES read at an index given by coordinates, at the ranks a keep-dims reduction
  followed by a rank-3 broadcast meets: a vector `[a]` cast to a column `[a, 1]`, a column cast to `[a, 1, 1]`,
  and the two rank-3 broadcasts that repeat a value along the axes on which the operand has extent one —
  `[a, 1, 1] → [a, b, c]` (one value per leading coordinate) and `[1, b, c] → [a, b, c]` (one plane repeated).
  Each is the library's general lemma (a shape cast keeps the row-major position; a broadcast reads coordinate
  zero on a unit axis) with both indices written by coordinates, so that it applies by unification.
-/
import Idealize.ShloMosaic.Lib.Pipeline.Value
import Idealize.ShloMosaic.Lib.ValueIdx

namespace Cert.UnitAxes

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a, 1, 1]` reads, at `(i, u, v)`, the operand at `(i, w)`, whatever the unit
    coordinates. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v w : Fin 1) :
    shapeCast ⟨3, ![a, 1, 1]⟩ x h (ix3 i u v) = x (ix2 i w) :=
  shapeCast_apply x h _ _ (by
    have hu : u.val = 0 := by omega
    have hv : v.val = 0 := by omega
    have hw : w.val = 0 := by omega
    rw [Shape.rowMajor_val_three, Shape.rowMajor_val_two]
    show i.val * 1 + w.val = (i.val * 1 + u.val) * 1 + v.val
    rw [hu, hv, hw, Nat.mul_one, Nat.add_zero, Nat.mul_one, Nat.add_zero])

/-- An `[a, 1, 1]` array broadcast to `[a, b, c]` reads, at `(i, j, k)`, the operand's one value for `i`. -/
theorem broadcastTo_a11_abc_apply {a b c : ℕ} (x : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ x h (ix3 i j k) = x (ix3 i (0 : Fin 1) (0 : Fin 1)) := by
  refine broadcastTo_apply x h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- A `[1, b, c]` array broadcast to `[a, b, c]` reads, at `(i, j, k)`, the operand's one plane at `(j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.UnitAxes
-- ==== Proof.BlockValue.lean ====
/-
  The value the kernel's body stores into its output block, entry by entry, on the extended reals.

  The body loads nine blocks: a latent block `x0` (`[64, 64]`, one row per combination `c`), a feature block `x1`
  (`[128, 64]`, one row per batch entry `b`), the two halves `x2`, `x3` of the first layer's weights (the columns that
  meet the latent row, and those that meet the feature row), the second and third layers' weights `x4`, `x5`, and the
  three biases `x6`, `x7`, `x8` as one-row arrays. It forms the first layer as the sum of two half-products and the
  bias — the feature half-product cast to `[128, 1, 64]` and repeated along the middle axis, the latent half-product
  cast to `[1, 64, 64]` and repeated along the first axis, the bias row cast to `[1, 1, 64]` and repeated along both —,
  rectifies it, flattens `[128, 64, 64]` to `[8192, 64]`, applies the second layer (a product, a one-row bias repeated
  down the rows, a rectifier) and the third (a product and a one-row bias), and casts `[8192, 32]` back to
  `[128, 64, 32]`.

  Read at `(b, c, o)` this is the specification's network on row `b` of `x1` and row `c` of `x0`
  (`stored_apply`). Every change to the narrow float format is the identity on extended reals; each of the four
  products is an `[M, K]` array times the TRANSPOSE of a weight block that holds one row per output unit, into the zero
  accumulator, so its entry `(a, v)` is `Σ_k lhs[a, k] · w[v, k]` (`matmul_transposed_apply`); a shape cast keeps the
  row-major position, so entry `(b, c, ·)` of a `[128, 64, ·]` array is row `b · 64 + c` of the flat one; a broadcast
  reads coordinate zero on the operand's unit axes.
-/
import proofs.«145024_j25271587570218_1_alg».proof.Proof.Gen.KernelIdeal.Skeleton
import proofs.«145024_j25271587570218_1_alg».proof.Proof.Spec
import proofs.«145024_j25271587570218_1_alg».proof.Proof.LibPlainMatmul
import proofs.«145024_j25271587570218_1_alg».proof.Proof.LibUnitAxes
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue
open Cert.KernelIdeal Cert.KernelIdeal.Gen Idealize.ShloMosaic Idealize.ShloMosaic.ValueIdx
open scoped BigOperators

/-! ## Layout steps read at an index given by coordinates -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, c]` array cast to `[n, c]` (`n = a · b`) reads, at `(r, k)` with `r = i · b + j`, the operand at
    `(i, j, k)`: the row-major position is kept. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array (`n = a · b`) cast to `[a, b, c]` reads, at `(i, j, k)`, the operand at `(r, k)` with
    `r = i · b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-! ## A product against a transposed weight block -/

/-- An `[M, K]` array times the transpose of an `[N, K]` weight array, into the zero accumulator, has at `(a, v)`
    the entry `Σ_k lhs[a, k] · w[v, k]`: row `a` of the left operand against ROW `v` of the weights. -/
theorem matmul_transposed_apply {M K N : ℕ} {φ₁ φ₂ : FTy}
    (d : DotDims ⟨2, ![M, K]⟩ ⟨2, ![K, N]⟩ ⟨2, ![M, N]⟩)
    (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (w : FVec Ideal ⟨2, ![N, K]⟩ φ₂)
    (ht : (⟨2, ![N, K]⟩ : Shape).Transposes [1, 0] ⟨2, ![K, N]⟩) (a : Fin M) (v : Fin N) :
    matmul d prec lhs (transpose ⟨2, ![K, N]⟩ [1, 0] w ht) (constant ⟨2, ![M, N]⟩ .f32 0x00000000#32) (ix2 a v)
      = ∑ k : Fin K, lhs (ix2 a k) * w (ix2 v k) := by
  rw [Cert.PlainMatmul.matmul_zero_apply d hlb hrb hln hrn hlc hrc]
  refine Finset.sum_congr rfl fun k _ => ?_
  rw [transpose_ix2_apply]

/-! ## The kernel's stored value at block coordinates -/

/-- The second-layer bias operand: the one-row block repeated down the 8192 rows reads its entry `g` in every row. -/
theorem pay4_apply (x7 : Vec Ideal S1x64 .f32) (r : Fin 8192) (g : Fin 64) :
    k0_pay4 (F := Ideal) x7 (ix2 r g) = x7 (ix2 (0 : Fin 1) g) := by
  unfold k0_pay4
  rw [broadcastTo_1b_ab_apply, shapeCast_self]

/-- The third-layer weight operand: the change of format is the identity on extended reals. -/
theorem pay2_apply (x5 : Vec Ideal S32x64 .f32) (o : Fin 32) (g : Fin 64) :
    k0_pay2 (F := Ideal) x5 (ix2 o g) = x5 (ix2 o g) := rfl

/-- The second layer's product, at row `r = b · 64 + c` and column `g`: the rectified first layer of feature row `b`
    and latent row `c`, contracted against row `g` of the second-layer weights. The first layer is the feature
    half-product (a `[128, 64]` array, one row per `b`, repeated along the middle axis), plus the latent half-product
    (a `[64, 64]` array, one row per `c`, repeated along the first axis), plus the bias row repeated along both. -/
theorem pay3_apply (x0 : Vec Ideal S64x64 .f32) (x1 : Vec Ideal S128x64 .f32) (x2 x3 x4 : Vec Ideal S64x64 .f32)
    (x6 : Vec Ideal S1x64 .f32)
    (w1 : FVec Ideal ⟨2, ![64, 128]⟩ .f32) (b1 : FVec Ideal ⟨1, ![64]⟩ .f32)
    (hw1v : ∀ h k : Fin 64, x2 (ix2 h k) = w1 (ix2 h ⟨k.val, by have := k.isLt; omega⟩))
    (hw1p : ∀ h k : Fin 64, x3 (ix2 h k) = w1 (ix2 h ⟨64 + k.val, by have := k.isLt; omega⟩))
    (hb1 : ∀ h : Fin 64, x6 (ix2 (0 : Fin 1) h) = b1 (ix1 h))
    (b : Fin 128) (c : Fin 64) (g : Fin 64) (r : Fin 8192) (hr : r.val = b.val * 64 + c.val) :
    k0_pay3 (F := Ideal) x0 x1 x2 x3 x4 x6 (ix2 r g)
      = ∑ h : Fin 64, max (Cert.Mlp.pre1 (fun k => x1 (ix2 b k)) (fun k => x0 (ix2 c k)) w1 b1 h) Cert.Mlp.zero
          * x4 (ix2 g h) := by
  unfold k0_pay3
  rw [matmul_transposed_apply _ rfl rfl rfl rfl rfl rfl]
  refine Finset.sum_congr rfl fun h _ => ?_
  rw [shapeCast_abc_nc_apply _ _ b c h r hr]
  simp only [truncf_apply, maximumf_apply, addf_apply, broadcast_apply, broadcastTo_a1c_abc_apply,
    Cert.UnitAxes.broadcastTo_1bc_abc_apply, broadcastTo_11c_abc_apply, shapeCast_ab_a1b_apply,
    shapeCast_ab_1ab_apply, shapeCast_self,
    matmul_transposed_apply dot_S128x64_S64x64_S128x64_1_0_0_1_n_n rfl rfl rfl rfl rfl rfl,
    matmul_transposed_apply dot_S64x64_S64x64_S64x64_1_0_0_1_n_n rfl rfl rfl rfl rfl rfl,
    hw1v, hw1p, hb1]
  rfl

/-- THE STORED VALUE at block coordinates `(b, c, o)`: the network on row `b` of the feature block and row `c` of
    the latent block. The two casts between `[128, 64, ·]` and `[8192, ·]` keep the row-major position, so the
    entry `(b, c, ·)` is row `b · 64 + c` of the flat arrays the second and third products act on. -/
theorem stored_apply
    (x0 : Vec Ideal S64x64 .f32) (x1 : Vec Ideal S128x64 .f32) (x2 x3 x4 : Vec Ideal S64x64 .f32) (x5 : Vec Ideal S32x64 .f32)
    (x6 x7 : Vec Ideal S1x64 .f32) (x8 : Vec Ideal S1x32 .f32)
    (w1 : FVec Ideal ⟨2, ![64, 128]⟩ .f32) (b1 b2 : FVec Ideal ⟨1, ![64]⟩ .f32) (b3 : FVec Ideal ⟨1, ![32]⟩ .f32)
    (hw1v : ∀ h k : Fin 64, x2 (ix2 h k) = w1 (ix2 h ⟨k.val, by have := k.isLt; omega⟩))
    (hw1p : ∀ h k : Fin 64, x3 (ix2 h k) = w1 (ix2 h ⟨64 + k.val, by have := k.isLt; omega⟩))
    (hb1 : ∀ h : Fin 64, x6 (ix2 (0 : Fin 1) h) = b1 (ix1 h))
    (hb2 : ∀ g : Fin 64, x7 (ix2 (0 : Fin 1) g) = b2 (ix1 g))
    (hb3 : ∀ o : Fin 32, x8 (ix2 (0 : Fin 1) o) = b3 (ix1 o))
    (b : Fin 128) (c : Fin 64) (o : Fin 32) :
    k0_pay1 (F := Ideal) (k0_pay2 x5) (k0_pay3 x0 x1 x2 x3 x4 x6) (k0_pay4 x7) x8 (ix3 b c o)
      = Cert.Mlp.net (fun k => x1 (ix2 b k)) (fun k => x0 (ix2 c k)) w1 b1 x4 b2 x5 b3 o := by
  have hrlt : b.val * 64 + c.val < 8192 := by have := b.isLt; have := c.isLt; omega
  unfold k0_pay1
  rw [shapeCast_nc_abc_apply _ _ b c o ⟨b.val * 64 + c.val, hrlt⟩ rfl, addf_apply,
    matmul_transposed_apply _ rfl rfl rfl rfl rfl rfl, broadcastTo_1b_ab_apply, shapeCast_self, hb3]
  unfold Cert.Mlp.net Cert.Mlp.lin3
  refine congrArg (· + b3 (ix1 o)) (Finset.sum_congr rfl fun g _ => ?_)
  rw [truncf_apply, maximumf_apply, addf_apply, broadcast_apply,
    pay3_apply x0 x1 x2 x3 x4 x6 w1 b1 hw1v hw1p hb1 b c g ⟨b.val * 64 + c.val, hrlt⟩ rfl, pay4_apply, pay2_apply, hb2]
  rfl

end Cert.KernelIdeal.BlockValue

end
-- ==== Proof.KernelIdealFinal.lean ====
/-
  The result array after the region: from blocks to the whole array.

  Grid point `t = (bi, ci)` writes back, over block `(bi, ci, 0)` of the result (rows `128·bi …`, `64·ci …`, all 32
  outputs), the value the body stored: the network on row `b` of the feature block and row `c` of the latent block.
  The feature block at `t` is rows `128·bi + b` of the feature array, the latent block rows `64·ci + c` of the latent
  table, and the seven small windows are their arrays whole: the first layer's two weight halves are the two column
  ranges of its weight array, the biases their arrays cast to one row. So what point `t` writes back is block `t` of ONE
  array, the specification's `result` of the arguments and the latent table (`written_back`). The 2 × 64 blocks tile
  the result array (`covered`), so the array ends as that function (`final`).
-/
import proofs.«145024_j25271587570218_1_alg».proof.Proof.KernelIdealFrame
import proofs.«145024_j25271587570218_1_alg».proof.Proof.Spec
import proofs.«145024_j25271587570218_1_alg».proof.Proof.BlockValue
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Final

open Cert.KernelIdeal Cert.KernelIdeal.Gen Cert.KernelIdeal.Frame
open Idealize.ShloMosaic Idealize.ShloMosaic.TcCoe Idealize.ShloMosaic.StableHlo Idealize.SL.Sem Idealize.ShloMosaic.ValueIdx
open Idealize.ShloMosaic.Pipeline (Dat)

variable (m : (ℓ : Loc nD τ sig) → Buf (Elt Ideal) ℓ) (ρ : Dev nD → PrngReg)

/-! ## What the host operations left in the arrays the small windows stage -/

/-- The latent half of the first layer's weights: columns 0 … 63 of the weight array. -/
theorem entry_w1v (c : Dev nD) : (V m c main_v47 : S64x64.Idx → EReal)
    = extractStridedSlice S64x64 ![0, 0] (m ((c : Thread nD τ).loc main_arg2)) slices_S64x128_S64x64_0_0 := by
  dsimp only [V, hostOps0]; after_results

/-- The feature half: columns 64 … 127. -/
theorem entry_w1p (c : Dev nD) : (V m c main_v48 : S64x64.Idx → EReal)
    = extractStridedSlice S64x64 ![0, 64] (m ((c : Thread nD τ).loc main_arg2)) slices_S64x128_S64x64_0_64 := by
  dsimp only [V, hostOps0]; after_results

theorem entry_b1 (c : Dev nD) : (V m c main_v49 : S1x64.Idx → EReal) = shapeCast S1x64 (m ((c : Thread nD τ).loc main_arg3)) shapeCasts_S64_S1x64 := by
  dsimp only [V, hostOps0]; after_results; rfl

theorem entry_b2 (c : Dev nD) : (V m c main_v50 : S1x64.Idx → EReal) = shapeCast S1x64 (m ((c : Thread nD τ).loc main_arg5)) shapeCasts_S64_S1x64 := by
  dsimp only [V, hostOps0]; after_results; rfl

theorem entry_b3 (c : Dev nD) : (V m c main_v51 : S1x32.Idx → EReal) = shapeCast S1x32 (m ((c : Thread nD τ).loc main_arg7)) shapeCasts_S32_S1x32 := by
  dsimp only [V, hostOps0]; after_results; rfl

/-! ## The result as one function -/

/-- What the result array ends holding: the network on the rows of the feature array and of the latent table as the
    region finds it. -/
def resultOf (c : Dev nD) : S256x4096x32.Idx → EReal :=
  Cert.Mlp.result (B := 256) (C := 4096) (m ((c : Thread nD τ).loc main_arg0)) (V m c main_v46) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the latent window moves with the result's second block coordinate,
    the feature window with its first, every other input window stays at block zero, and the result's block
    coordinates stay in their ranges. -/
theorem idx_facts : ∀ t : Fin cfg0.N,
    win0_0.index t (0 : Fin 2) = win0_9.index t (1 : Fin 3) ∧ win0_0.index t (1 : Fin 2) = 0
    ∧ win0_1.index t (0 : Fin 2) = win0_9.index t (0 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) ≤ 1 ∧ win0_9.index t (1 : Fin 3) ≤ 63 ∧ win0_9.index t (2 : Fin 3) = 0 :=
  (by decide +kernel : ∀ t : Fin grid0.N, _)

/-- Every block of the result is some point's. -/
theorem idx_onto : ∀ (q0 : Fin 2) (q1 : Fin 64), ∃ t : Fin cfg0.N, win0_9.index t = ![q0.val, q1.val, 0] :=
  (by decide +kernel : ∀ (q0 : Fin 2) (q1 : Fin 64), ∃ t : Fin grid0.N, win0_9.index t = ![q0.val, q1.val, 0])

/-! ## The windows' blocks, read -/

/-- The latent half of the first layer's weights, as the body's third block. -/
theorem block_w1v (c : Dev nD) (t : Fin cfg0.N) (h k : Fin 64) : (blockAt m c 2 t : S64x64.Idx → EReal) (ix2 h k)
    = ((m ((c : Thread nD τ).loc main_arg2)) : S64x128.Idx → EReal) (ix2 h ⟨k.val, by have := k.isLt; omega⟩) := by
  obtain ⟨e00, e01, e10, e11, e20, e21, e30, e31, e40, e41, e50, e51, e60, e61, e70, e71, e80, e81, l0, l1, e92⟩ := idx_facts t
  show V m c main_v47 (((cfg0.win 2).blk t).view.emb (ix2 h k)) = _
  have he : ((cfg0.win 2).blk t).view.emb (ix2 h k) = ix2 h k := by
    funext a; apply Fin.ext
    match a with
    | ⟨0, _⟩ => show win0_2.index t (0 : Fin 2) * 64 + 1 * (h).val = (h).val; omega
    | ⟨1, _⟩ => show win0_2.index t (1 : Fin 2) * 64 + 1 * (k).val = (k).val; omega
  rw [he, entry_w1v]
  exact slice2_axis1_apply 0 _ slices_S64x128_S64x64_0_0 h k ⟨k.val, by have := k.isLt; omega⟩ (Nat.zero_add _).symm

/-- The feature half, as its fourth block. -/
theorem block_w1p (c : Dev nD) (t : Fin cfg0.N) (h k : Fin 64) : (blockAt m c 3 t : S64x64.Idx → EReal) (ix2 h k)
    = ((m ((c : Thread nD τ).loc main_arg2)) : S64x128.Idx → EReal) (ix2 h ⟨64 + k.val, by have := k.isLt; omega⟩) := by
  obtain ⟨e00, e01, e10, e11, e20, e21, e30, e31, e40, e41, e50, e51, e60, e61, e70, e71, e80, e81, l0, l1, e92⟩ := idx_facts t
  show V m c main_v48 (((cfg0.win 3).blk t).view.emb (ix2 h k)) = _
  have he : ((cfg0.win 3).blk t).view.emb (ix2 h k) = ix2 h k := by
    funext a; apply Fin.ext
    match a with
    | ⟨0, _⟩ => show win0_3.index t (0 : Fin 2) * 64 + 1 * (h).val = (h).val; omega
    | ⟨1, _⟩ => show win0_3.index t (1 : Fin 2) * 64 + 1 * (k).val = (k).val; omega
  rw [he, entry_w1p]
  exact slice2_axis1_apply 64 _ slices_S64x128_S64x64_0_64 h k ⟨64 + k.val, by have := k.isLt; omega⟩ rfl

/-- The three biases, each as a one-row block. -/
theorem block_b1 (c : Dev nD) (t : Fin cfg0.N) (h : Fin 64) :
    (blockAt m c 6 t : S1x64.Idx → EReal) (ix2 (0 : Fin 1) h) = ((m ((c : Thread nD τ).loc main_arg3)) : S64.Idx → EReal) (ix1 h) := by
  obtain ⟨e00, e01, e10, e11, e20, e21, e30, e31, e40, e41, e50, e51, e60, e61, e70, e71, e80, e81, l0, l1, e92⟩ := idx_facts t
  show V m c main_v49 (((cfg0.win 6).blk t).view.emb (ix2 (0 : Fin 1) h)) = _
  have he : ((cfg0.win 6).blk t).view.emb (ix2 (0 : Fin 1) h) = ix2 (0 : Fin 1) h := by
    funext a; apply Fin.ext
    match a with
    | ⟨0, _⟩ => show win0_6.index t (0 : Fin 2) * 1 + 1 * ((0 : Fin 1)).val = ((0 : Fin 1)).val; omega
    | ⟨1, _⟩ => show win0_6.index t (1 : Fin 2) * 64 + 1 * (h).val = (h).val; omega
  rw [he, entry_b1]
  exact shapeCast_a_1a_apply _ shapeCasts_S64_S1x64 0 h

theorem block_b2 (c : Dev nD) (t : Fin cfg0.N) (g : Fin 64) :
    (blockAt m c 7 t : S1x64.Idx → EReal) (ix2 (0 : Fin 1) g) = ((m ((c : Thread nD τ).loc main_arg5)) : S64.Idx → EReal) (ix1 g) := by
  obtain ⟨e00, e01, e10, e11, e20, e21, e30, e31, e40, e41, e50, e51, e60, e61, e70, e71, e80, e81, l0, l1, e92⟩ := idx_facts t
  show V m c main_v50 (((cfg0.win 7).blk t).view.emb (ix2 (0 : Fin 1) g)) = _
  have he : ((cfg0.win 7).blk t).view.emb (ix2 (0 : Fin 1) g) = ix2 (0 : Fin 1) g := by
    funext a; apply Fin.ext
    match a with
    | ⟨0, _⟩ => show win0_7.index t (0 : Fin 2) * 1 + 1 * ((0 : Fin 1)).val = ((0 : Fin 1)).val; omega
    | ⟨1, _⟩ => show win0_7.index t (1 : Fin 2) * 64 + 1 * (g).val = (g).val; omega
  rw [he, entry_b2]
  exact shapeCast_a_1a_apply _ shapeCasts_S64_S1x64 0 g

theorem block_b3 (c : Dev nD) (t : Fin cfg0.N) (q : Fin 32) :
    (blockAt m c 8 t : S1x32.Idx → EReal) (ix2 (0 : Fin 1) q) = ((m ((c : Thread nD τ).loc main_arg7)) : S32.Idx → EReal) (ix1 q) := by
  obtain ⟨e00, e01, e10, e11, e20, e21, e30, e31, e40, e41, e50, e51, e60, e61, e70, e71, e80, e81, l0, l1, e92⟩ := idx_facts t
  show V m c main_v51 (((cfg0.win 8).blk t).view.emb (ix2 (0 : Fin 1) q)) = _
  have he : ((cfg0.win 8).blk t).view.emb (ix2 (0 : Fin 1) q) = ix2 (0 : Fin 1) q := by
    funext a; apply Fin.ext
    match a with
    | ⟨0, _⟩ => show win0_8.index t (0 : Fin 2) * 1 + 1 * ((0 : Fin 1)).val = ((0 : Fin 1)).val; omega
    | ⟨1, _⟩ => show win0_8.index t (1 : Fin 2) * 32 + 1 * (q).val = (q).val; omega
  rw [he, entry_b3]
  exact shapeCast_a_1a_apply _ shapeCasts_S32_S1x32 0 q

/-- The second and third layers' weight windows are their arrays whole. -/
theorem block_w2 (c : Dev nD) (t : Fin cfg0.N) : (blockAt m c 4 t : S64x64.Idx → EReal) = (m ((c : Thread nD τ).loc main_arg4)) := by
  obtain ⟨e00, e01, e10, e11, e20, e21, e30, e31, e40, e41, e50, e51, e60, e61, e70, e71, e80, e81, l0, l1, e92⟩ := idx_facts t
  funext y
  obtain ⟨y0, y1, rfl⟩ : ∃ (y0 : Fin 64) (y1 : Fin 64), y = ix2 y0 y1 := ⟨y 0, y 1, eq_ix2 y⟩
  show V m c main_arg4 (((cfg0.win 4).blk t).view.emb (ix2 y0 y1)) = _
  have he : ((cfg0.win 4).blk t).view.emb (ix2 y0 y1) = ix2 y0 y1 := by
    funext a; apply Fin.ext
    match a with
    | ⟨0, _⟩ => show win0_4.index t (0 : Fin 2) * 64 + 1 * (y0).val = (y0).val; omega
    | ⟨1, _⟩ => show win0_4.index t (1 : Fin 2) * 64 + 1 * (y1).val = (y1).val; omega
  rw [he, V_main_arg4]

theorem block_w3 (c : Dev nD) (t : Fin cfg0.N) : (blockAt m c 5 t : S32x64.Idx → EReal) = (m ((c : Thread nD τ).loc main_arg6)) := by
  obtain ⟨e00, e01, e10, e11, e20, e21, e30, e31, e40, e41, e50, e51, e60, e61, e70, e71, e80, e81, l0, l1, e92⟩ := idx_facts t
  funext y
  obtain ⟨y0, y1, rfl⟩ : ∃ (y0 : Fin 32) (y1 : Fin 64), y = ix2 y0 y1 := ⟨y 0, y 1, eq_ix2 y⟩
  show V m c main_arg6 (((cfg0.win 5).blk t).view.emb (ix2 y0 y1)) = _
  have he : ((cfg0.win 5).blk t).view.emb (ix2 y0 y1) = ix2 y0 y1 := by
    funext a; apply Fin.ext
    match a with
    | ⟨0, _⟩ => show win0_5.index t (0 : Fin 2) * 32 + 1 * (y0).val = (y0).val; omega
    | ⟨1, _⟩ => show win0_5.index t (1 : Fin 2) * 64 + 1 * (y1).val = (y1).val; omega
  rw [he, V_main_arg6]

/-- Row `b` of the feature block at `t` is row `128·bi + b` of the feature array. -/
theorem block_phi (c : Dev nD) (t : Fin cfg0.N) (b : Fin 128) (hb : win0_9.index t (0 : Fin 3) * 128 + b.val < 256) (k : Fin 64) :
    (blockAt m c 1 t : S128x64.Idx → EReal) (ix2 b k)
      = ((m ((c : Thread nD τ).loc main_arg0)) : S256x64.Idx → EReal) (ix2 (⟨win0_9.index t (0 : Fin 3) * 128 + b.val, hb⟩ : Fin 256) k) := by
  obtain ⟨e00, e01, e10, e11, e20, e21, e30, e31, e40, e41, e50, e51, e60, e61, e70, e71, e80, e81, l0, l1, e92⟩ := idx_facts t
  show V m c main_arg0 (((cfg0.win 1).blk t).view.emb (ix2 b k)) = _
  have he : ((cfg0.win 1).blk t).view.emb (ix2 b k) = ix2 (⟨win0_9.index t (0 : Fin 3) * 128 + b.val, hb⟩ : Fin 256) k := by
    funext a; apply Fin.ext
    match a with
    | ⟨0, _⟩ => show win0_1.index t (0 : Fin 2) * 128 + 1 * b.val = win0_9.index t (0 : Fin 3) * 128 + b.val; omega
    | ⟨1, _⟩ => show win0_1.index t (1 : Fin 2) * 64 + 1 * k.val = k.val; omega
  rw [he, V_main_arg0]

/-- Row `cc` of the latent block at `t` is row `64·ci + cc` of the latent table. -/
theorem block_va (c : Dev nD) (t : Fin cfg0.N) (cc : Fin 64) (hc : win0_9.index t (1 : Fin 3) * 64 + cc.val < 4096) (k : Fin 64) :
    (blockAt m c 0 t : S64x64.Idx → EReal) (ix2 cc k)
      = (V m c main_v46 : S4096x64.Idx → EReal) (ix2 (⟨win0_9.index t (1 : Fin 3) * 64 + cc.val, hc⟩ : Fin 4096) k) := by
  obtain ⟨e00, e01, e10, e11, e20, e21, e30, e31, e40, e41, e50, e51, e60, e61, e70, e71, e80, e81, l0, l1, e92⟩ := idx_facts t
  show V m c main_v46 (((cfg0.win 0).blk t).view.emb (ix2 cc k)) = _
  have he : ((cfg0.win 0).blk t).view.emb (ix2 cc k) = ix2 (⟨win0_9.index t (1 : Fin 3) * 64 + cc.val, hc⟩ : Fin 4096) k := by
    funext a; apply Fin.ext
    match a with
    | ⟨0, _⟩ => show win0_0.index t (0 : Fin 2) * 64 + 1 * cc.val = win0_9.index t (1 : Fin 3) * 64 + cc.val; omega
    | ⟨1, _⟩ => show win0_0.index t (1 : Fin 2) * 64 + 1 * k.val = k.val; omega
  rw [he]

/-- Where entry `(b, cc, o)` of the result's block at `t` sits in the result array. -/
theorem block_out (t : Fin cfg0.N) (b : Fin 128) (cc : Fin 64) (o : Fin 32)
    (hb : win0_9.index t (0 : Fin 3) * 128 + b.val < 256) (hc : win0_9.index t (1 : Fin 3) * 64 + cc.val < 4096) :
    ((cfg0.win 9).blk t).view.emb (ix3 b cc o)
      = ix3 (⟨win0_9.index t (0 : Fin 3) * 128 + b.val, hb⟩ : Fin 256) (⟨win0_9.index t (1 : Fin 3) * 64 + cc.val, hc⟩ : Fin 4096) o := by
  obtain ⟨e00, e01, e10, e11, e20, e21, e30, e31, e40, e41, e50, e51, e60, e61, e70, e71, e80, e81, l0, l1, e92⟩ := idx_facts t
  funext a; apply Fin.ext
  match a with
  | ⟨0, _⟩ => show win0_9.index t (0 : Fin 3) * 128 + 1 * b.val = win0_9.index t (0 : Fin 3) * 128 + b.val; omega
  | ⟨1, _⟩ => show win0_9.index t (1 : Fin 3) * 64 + 1 * cc.val = win0_9.index t (1 : Fin 3) * 64 + cc.val; omega
  | ⟨2, _⟩ => show win0_9.index t (2 : Fin 3) * 32 + 1 * o.val = o.val; omega

/-! ## What a point writes back -/

set_option maxHeartbeats 1000000 in
/-- What point `t` writes back is block `t` of the result function: the network on row `128·bi + b` of the features and
    row `64·ci + cc` of the latent table. -/
theorem written_back (c : Dev nD) (t : Fin cfg0.N) :
    (data m 0 c).flushed 9 t = ((cfg0.win 9).blk t).view.read (Elt Ideal) (resultOf m c) := by
  show (cfg0.win 9).cut (grid0.coords t) ((data m 0 c).after 9 t) = _
  rw [after9]
  unfold stored
  rw [View.canon_unit_zero hz3]
  simp only [View.ld_unit_zero (S := S64x64) hz2, View.ld_unit_zero (S := S128x64) hz2, View.ld_unit_zero (S := S32x64) hz2,
    View.ld_unit_zero (S := S1x64) hz2, View.ld_unit_zero (S := S1x32) hz2]
  obtain ⟨e00, e01, e10, e11, e20, e21, e30, e31, e40, e41, e50, e51, e60, e61, e70, e71, e80, e81, l0, l1, e92⟩ := idx_facts t
  funext j
  revert j
  show ∀ j : S128x64x32.Idx, k0_pay1 (F := Ideal) (k0_pay2 (blockAt m c 5 t))
      (k0_pay3 (blockAt m c 0 t) (blockAt m c 1 t) (blockAt m c 2 t) (blockAt m c 3 t) (blockAt m c 4 t) (blockAt m c 6 t))
      (k0_pay4 (blockAt m c 7 t)) (blockAt m c 8 t) j = resultOf m c (((cfg0.win 9).blk t).view.emb j)
  intro j
  obtain ⟨b, cc, o, rfl⟩ : ∃ (b : Fin 128) (cc : Fin 64) (o : Fin 32), j = ix3 b cc o := ⟨j 0, j 1, j 2, eq_ix3 j⟩
  have hb : win0_9.index t (0 : Fin 3) * 128 + b.val < 256 := by have := b.isLt; omega
  have hc : win0_9.index t (1 : Fin 3) * 64 + cc.val < 4096 := by have := cc.isLt; omega
  refine (BlockValue.stored_apply (blockAt m c 0 t) (blockAt m c 1 t) (blockAt m c 2 t) (blockAt m c 3 t) (blockAt m c 4 t)
    (blockAt m c 5 t) (blockAt m c 6 t) (blockAt m c 7 t) (blockAt m c 8 t) (m ((c : Thread nD τ).loc main_arg2)) (m ((c : Thread nD τ).loc main_arg3)) (m ((c : Thread nD τ).loc main_arg5)) (m ((c : Thread nD τ).loc main_arg7))
    (block_w1v m c t) (block_w1p m c t) (block_b1 m c t) (block_b2 m c t) (block_b3 m c t) b cc o).trans ?_
  rw [block_out t b cc o hb hc]
  unfold resultOf
  rw [Cert.Mlp.result_apply, funext (block_phi m c t b hb), funext (block_va m c t cc hc), block_w2 m c t, block_w3 m c t]
/-! ## The blocks tile the result -/

/-- An index is in point `t`'s block iff each coordinate is in the block's range on its axis. -/
theorem mem_block (t : Fin cfg0.N) (i : S256x4096x32.Idx) :
    i ∈ ((cfg0.win 9).blk t).view.set ↔ ∀ a : Fin 3, win0_9.index t a * S128x64x32.size a ≤ (i a).val
      ∧ (i a).val < win0_9.index t a * S128x64x32.size a + S128x64x32.size a := by
  show i ∈ ((View.whole main_v52).slice (win0_9.rect t)).set ↔ _
  rw [View.set_slice_whole, Rect.mem_set_unit]
  exact Iff.rfl

/-- Every index of the result lies in the block of the point whose coordinates are its first coordinate over 128 and
    its second over 64. -/
theorem covered (i : S256x4096x32.Idx) :
    ∃ t : Fin cfg0.N, (cfg0.win 9).flush t = true ∧ i ∈ ((cfg0.win 9).blk t).view.set := by
  have hi0 : (i 0).val < 256 := (i 0).isLt
  have hi1 : (i 1).val < 4096 := (i 1).isLt
  have hi2 : (i 2).val < 32 := (i 2).isLt
  obtain ⟨t, ht⟩ := idx_onto ⟨(i 0).val / 128, by omega⟩ ⟨(i 1).val / 64, by omega⟩
  have q0 : win0_9.index t (0 : Fin 3) = (i 0).val / 128 := congrFun ht 0
  have q1 : win0_9.index t (1 : Fin 3) = (i 1).val / 64 := congrFun ht 1
  have q2 : win0_9.index t (2 : Fin 3) = 0 := congrFun ht 2
  refine ⟨t, flush0_9 t, ?_⟩
  rw [mem_block]
  intro a
  match a with
  | ⟨0, _⟩ => show win0_9.index t (0 : Fin 3) * 128 ≤ (i 0).val ∧ (i 0).val < win0_9.index t (0 : Fin 3) * 128 + 128; omega
  | ⟨1, _⟩ => show win0_9.index t (1 : Fin 3) * 64 ≤ (i 1).val ∧ (i 1).val < win0_9.index t (1 : Fin 3) * 64 + 64; omega
  | ⟨2, _⟩ => show win0_9.index t (2 : Fin 3) * 32 ≤ (i 2).val ∧ (i 2).val < win0_9.index t (2 : Fin 3) * 32 + 32; omega

/-- THE RESULT ARRAY after the run is the specification's result of the arguments and the latent table. -/
theorem final (c : Dev nD) : (data m 0 c).arrAt 9 cfg0.N = resultOf m c :=
  (data m 0 c).arrAt_eq_of_cover 9 (resultOf m c) (fun t _ => written_back m c t) (covered)
end Cert.KernelIdeal.Final

end
-- ==== Proof.SharedTable.lean ====
/-
  The latent table is the same array in both programs.

  Both programs build the table of latent rows, one row per combination of region choices, by the same host operations
  on the region parameters: integer index arithmetic that depends on no input, a gather of the parameters at those
  indices, and a reshape. So the array the kernel's region finds in its latent window's buffer is, term for term, the
  stage the reference's run names for its own table. Nothing about WHICH rows are gathered is needed, only that the two
  terms coincide; the comparison is made at an arbitrary float family, where no operation unfolds.
-/
import proofs.«145024_j25271587570218_1_alg».proof.Proof.KernelIdealFrame
import proofs.«145024_j25271587570218_1_alg».proof.Proof.RefReadP
import Idealize.ShloMosaic.Lib.StableHlo.Run

set_option maxRecDepth 16384

noncomputable section

namespace Cert.KernelIdeal.SharedTable

open Cert.KernelIdeal Cert.KernelIdeal.Gen Cert.KernelIdeal.Frame
open Idealize.ShloMosaic Idealize.ShloMosaic.TcCoe Idealize.ShloMosaic.StableHlo Idealize.SL.Sem

variable {F : FTy → Type} [FloatOps F]

set_option maxHeartbeats 4000000 in
/-- The latent table as the region finds it is the reference's table stage of the region parameters. -/
theorem table_eq (m : (ℓ : Loc nD τ sig) → Buf (Elt F) ℓ) (c : Dev nD) :
    (V m c main_v46 : S4096x64.Idx → Elt F .f32)
      = Cert.ReferenceIdeal.ReadP.val_main_v46 (F := F) (m ((c : Thread nD τ).loc main_arg1)) := by
  dsimp only [V, hostOps0]; after_results; rfl

end Cert.KernelIdeal.SharedTable

end
-- ==== Proof.RefValue.lean ====
/-
  The reference program's last stage is the specification's result array.

  For each (batch entry b, combination c) the reference joins the latent row va[c, ·] (first) and the feature row
  phi[b, ·] into one row of 128 entries, contracts all 128 positions against a weight row, adds the bias and takes the
  maximum with zero; the second layer contracts the 64 rectified entries, adds its bias and rectifies again; the third
  contracts and adds its bias. The latent table va is left as the stage that produces it: nothing here depends on how
  it is built.
-/
import proofs.«145024_j25271587570218_1_alg».proof.Proof.RefReadP
import proofs.«145024_j25271587570218_1_alg».proof.Proof.Spec
import Idealize.ShloMosaic.Lib.Pipeline.Value
import Idealize.ShloMosaic.Lib.ValueIdx
import Idealize.ShloMosaic.PureOps.Ideal

noncomputable section

namespace Cert.ReferenceIdeal.RefValue

open Cert.ReferenceIdeal Cert.ReferenceIdeal.Gen Cert.ReferenceIdeal.ReadP Idealize.ShloMosaic Idealize.ShloMosaic.ValueIdx
open scoped BigOperators

/-- The joined row below position 64 is the latent row: the first piece of the concatenation is the table broadcast
    over the batch. -/
theorem joined_low (x0 : (⟨S256x64, .f32⟩ : BufTy).Contents (Elt Ideal)) (x1 : (⟨S4x8x16, .f32⟩ : BufTy).Contents (Elt Ideal))
    (b : Fin 256) (c : Fin 4096) (k : Fin 64) :
    val_main_v51 (F := Ideal) x0 x1 (ix3 b c (⟨k.val, by have := k.isLt; omega⟩ : Fin 128))
      = val_main_v46 (F := Ideal) x1 (ix2 c k) := by
  unfold val_main_v51
  rw [concatenate_pair_apply_left (t := S256x4096x128) (s₁ := S256x4096x64) (s₂ := S256x4096x64) (2 : Fin 3) _ _ _ (ix3 b c (⟨k.val, by have := k.isLt; omega⟩ : Fin 128)) rfl (ix3 b c k)
    (fun a => by match a with | ⟨0, _⟩ => rfl | ⟨1, _⟩ => rfl | ⟨2, _⟩ => rfl)]
  rw [val_main_v50_apply, val_main_v49_apply]
  congr 1
  funext a
  match a with
  | ⟨0, _⟩ => rfl
  | ⟨1, _⟩ => rfl

/-- The joined row from position 64 on is the feature row: the second piece of the concatenation is the feature
    array broadcast over the combinations. -/
theorem joined_high (x0 : (⟨S256x64, .f32⟩ : BufTy).Contents (Elt Ideal)) (x1 : (⟨S4x8x16, .f32⟩ : BufTy).Contents (Elt Ideal))
    (b : Fin 256) (c : Fin 4096) (k : Fin 64) :
    val_main_v51 (F := Ideal) x0 x1 (ix3 b c (⟨64 + k.val, by have := k.isLt; omega⟩ : Fin 128))
      = x0 (ix2 b k) := by
  unfold val_main_v51
  rw [concatenate_pair_apply_right (t := S256x4096x128) (s₁ := S256x4096x64) (s₂ := S256x4096x64) (2 : Fin 3) _ _ _ (ix3 b c (⟨64 + k.val, by have := k.isLt; omega⟩ : Fin 128)) rfl rfl (ix3 b c k)
    (fun a => by match a with | ⟨0, _⟩ => intro _; rfl | ⟨1, _⟩ => intro _; rfl | ⟨2, _⟩ => intro h; exact absurd rfl h)
    (by show k.val + 64 = 64 + k.val; omega)]
  rw [val_main_v48_apply, val_main_v47_apply]
  congr 1
  funext a
  match a with
  | ⟨0, _⟩ => rfl
  | ⟨1, _⟩ => rfl

/-- The first layer: the contraction of the joined row plus the bias is the two half-products plus the bias. -/
theorem layer1 (x0 : (⟨S256x64, .f32⟩ : BufTy).Contents (Elt Ideal)) (x1 : (⟨S4x8x16, .f32⟩ : BufTy).Contents (Elt Ideal)) (x2 : (⟨S64x128, .f32⟩ : BufTy).Contents (Elt Ideal)) (x3 : (⟨S64, .f32⟩ : BufTy).Contents (Elt Ideal))
    (b : Fin 256) (c : Fin 4096) (h : Fin 64) :
    val_main_v56 (F := Ideal) x0 x1 x2 x3 (ix3 b c h)
      = max (Cert.Mlp.pre1 (fun k => x0 (ix2 b k)) (fun k => val_main_v46 (F := Ideal) x1 (ix2 c k)) x2 x3 h)
          Cert.Mlp.zero := by
  have e1 : ∀ k : Fin 128, lidx_main_v52 (ix3 b c h) k = ix3 b c k := fun k => funext fun a => by match a with | ⟨0, _⟩ => rfl | ⟨1, _⟩ => rfl | ⟨2, _⟩ => rfl
  have e2 : ∀ k : Fin 128, ridx_main_v52 (ix3 b c h) k = ix2 h k := fun k => funext fun a => by match a with | ⟨0, _⟩ => rfl | ⟨1, _⟩ => rfl
  have e3 : idx_main_v53 (idx_main_v54 (ix3 b c h)) = ix1 h := funext fun a => by match a with | ⟨0, _⟩ => rfl
  rw [val_main_v56_apply, val_main_v55_apply, val_main_v52_apply, val_main_v54_apply, val_main_v53_apply,
    val_main_call0_v0_apply, val_main_call0_cst_apply, Ideal.maximumf_def, Ideal.addf_def, Ideal.ofBits_def]
  rw [← Cert.Mlp.first_layer_joined (fun k => x0 (ix2 b k)) (fun k => val_main_v46 (F := Ideal) x1 (ix2 c k))
    (fun k => val_main_v51 (F := Ideal) x0 x1 (ix3 b c k)) (joined_low x0 x1 b c) (joined_high x0 x1 b c) x2 x3 h]
  simp only [e1, e2, e3]

/-- The second layer over the first layer's rectified row. -/
theorem layer2 (x0 : (⟨S256x64, .f32⟩ : BufTy).Contents (Elt Ideal)) (x1 : (⟨S4x8x16, .f32⟩ : BufTy).Contents (Elt Ideal)) (x2 : (⟨S64x128, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
    (b : Fin 256) (c : Fin 4096) (g : Fin 64) :
    val_main_v61 (F := Ideal) x0 x1 x2 x3 x4 x5 (ix3 b c g)
      = max (Cert.Mlp.pre2 (fun h => max (Cert.Mlp.pre1 (fun k => x0 (ix2 b k)) (fun k => val_main_v46 (F := Ideal) x1 (ix2 c k)) x2 x3 h) Cert.Mlp.zero) x4 x5 g) Cert.Mlp.zero := by
  have e1 : ∀ k : Fin 64, lidx_main_v57 (ix3 b c g) k = ix3 b c k := fun k => funext fun a => by match a with | ⟨0, _⟩ => rfl | ⟨1, _⟩ => rfl | ⟨2, _⟩ => rfl
  have e2 : ∀ k : Fin 64, ridx_main_v57 (ix3 b c g) k = ix2 g k := fun k => funext fun a => by match a with | ⟨0, _⟩ => rfl | ⟨1, _⟩ => rfl
  have e3 : idx_main_v58 (idx_main_v59 (ix3 b c g)) = ix1 g := funext fun a => by match a with | ⟨0, _⟩ => rfl
  rw [val_main_v61_apply, val_main_v60_apply, val_main_v57_apply, val_main_v59_apply, val_main_v58_apply,
    val_main_call1_v0_apply, val_main_call1_cst_apply, Ideal.maximumf_def, Ideal.addf_def, Ideal.ofBits_def]
  unfold Cert.Mlp.pre2
  simp only [e1, e2, e3, layer1]

/-- The third layer over the second layer's rectified row. -/
theorem layer3 (x0 : (⟨S256x64, .f32⟩ : BufTy).Contents (Elt Ideal)) (x1 : (⟨S4x8x16, .f32⟩ : BufTy).Contents (Elt Ideal)) (x2 : (⟨S64x128, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S32x64, .f32⟩ : BufTy).Contents (Elt Ideal)) (x7 : (⟨S32, .f32⟩ : BufTy).Contents (Elt Ideal))
    (b : Fin 256) (c : Fin 4096) (o : Fin 32) :
    val_main_v65 (F := Ideal) x0 x1 x2 x3 x4 x5 x6 x7 (ix3 b c o)
      = Cert.Mlp.lin3 (fun g => max (Cert.Mlp.pre2 (fun h => max (Cert.Mlp.pre1 (fun k => x0 (ix2 b k)) (fun k => val_main_v46 (F := Ideal) x1 (ix2 c k)) x2 x3 h) Cert.Mlp.zero) x4 x5 g) Cert.Mlp.zero) x6 x7 o := by
  have e1 : ∀ k : Fin 64, lidx_main_v62 (ix3 b c o) k = ix3 b c k := fun k => funext fun a => by match a with | ⟨0, _⟩ => rfl | ⟨1, _⟩ => rfl | ⟨2, _⟩ => rfl
  have e2 : ∀ k : Fin 64, ridx_main_v62 (ix3 b c o) k = ix2 o k := fun k => funext fun a => by match a with | ⟨0, _⟩ => rfl | ⟨1, _⟩ => rfl
  have e3 : idx_main_v63 (idx_main_v64 (ix3 b c o)) = ix1 o := funext fun a => by match a with | ⟨0, _⟩ => rfl
  rw [val_main_v65_apply, val_main_v62_apply, val_main_v64_apply, val_main_v63_apply, Ideal.addf_def]
  unfold Cert.Mlp.lin3
  simp only [e1, e2, e3, layer2]

/-- THE REFERENCE'S VALUE: its last stage is the result array of the arguments, the latent table being the stage
    that builds it from the second argument. -/
theorem reference_is_result
    (x0 : (⟨S256x64, .f32⟩ : BufTy).Contents (Elt Ideal)) (x1 : (⟨S4x8x16, .f32⟩ : BufTy).Contents (Elt Ideal))
    (x2 : (⟨S64x128, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S32x64, .f32⟩ : BufTy).Contents (Elt Ideal)) (x7 : (⟨S32, .f32⟩ : BufTy).Contents (Elt Ideal)) :
    val_main_v65 (F := Ideal) x0 x1 x2 x3 x4 x5 x6 x7
      = Cert.Mlp.result x0 (val_main_v46 (F := Ideal) x1) x2 x3 x4 x5 x6 x7 := by
  funext i
  obtain ⟨b, c, o, rfl⟩ : ∃ (b : Fin 256) (c : Fin 4096) (o : Fin 32), i = ix3 b c o := ⟨i 0, i 1, i 2, eq_ix3 i⟩
  rw [Cert.Mlp.result_apply, layer3]
  rfl

end Cert.ReferenceIdeal.RefValue

end
-- ==== Proof.lean ====
/-
  The certificate: a pipelined three-layer network against its plain reference, on the extended reals.

  Both programs compute, for every batch entry `b` of 256, every combination `c` of 4096 region choices and every output
  unit `o` of 32, the value of a small network — linear, rectifier, linear, rectifier, linear — on the latent row of
  `c` followed by the feature row of `b`. The reference forms the joined rows and contracts all 128 positions at once.
  The kernel never forms them: it multiplies the feature rows and the latent rows with the two halves of the first
  layer's weights separately and adds the two products, then runs the remaining layers block by block over a 2 × 64
  grid. A finite sum splits at any position and addition commutes in any commutative additive monoid, so the two
  first layers agree at every extended real, infinite entries included, and the later layers are the same
  expressions; the precondition is not used.

  Frames: each kernel program is its host operations followed by one region whose body, run symbolically, stores one
  value over its output block and touches nothing else (`Frame.frame`, the same text at both float instances); the
  reference is a straight line of host operations, whose run is read back operation by operation. The ideal pass
  rewrote nothing, so the idealized kernel is the kernel's own text. The value claim joins the result array the
  region's write-backs leave (`Final.final`: the blocks tile it, each the specification's function of the arguments)
  with the reference's last stage (`RefValue.reference_is_result`), the shared latent table carried as one array
  (`SharedTable.table_eq`).
-/
import proofs.«145024_j25271587570218_1_alg».proof.Defs
import proofs.«145024_j25271587570218_1_alg».proof.Proof.Gen.Kernel
import proofs.«145024_j25271587570218_1_alg».proof.Proof.Gen.KernelIdeal
import proofs.«145024_j25271587570218_1_alg».proof.Proof.Gen.ReferenceIdeal
import proofs.«145024_j25271587570218_1_alg».proof.Proof.Gen.Pre_finite_inputs
import proofs.«145024_j25271587570218_1_alg».proof.Proof.RefRunP
import proofs.«145024_j25271587570218_1_alg».proof.Proof.RefReadP
import proofs.«145024_j25271587570218_1_alg».proof.Proof.KernelFrame
import proofs.«145024_j25271587570218_1_alg».proof.Proof.KernelIdealFrame
import proofs.«145024_j25271587570218_1_alg».proof.Proof.KernelIdealFinal
import proofs.«145024_j25271587570218_1_alg».proof.Proof.SharedTable
import proofs.«145024_j25271587570218_1_alg».proof.Proof.RefValue
import Idealize.ShloMosaic.Adequacy
import Idealize.ShloMosaic.Init

noncomputable section

namespace Cert.Proof

open Idealize.ShloMosaic Idealize.SL.Sem

/-- The word-level kernel runs to its end and leaves its arguments as launched. -/
theorem frame_kernel : Cert.frame_Kernel := fun m ρ _ => Cert.Kernel.Frame.frame m ρ

/-- So does its idealization. -/
theorem frame_kernelIdeal : Cert.frame_KernelIdeal := fun m ρ _ => Cert.KernelIdeal.Frame.frame m ρ

/-- The reference is host operations only: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the result array at the specification's function of
    the arguments and the shared latent table. -/
theorem algebraic : Cert.algebraic_KernelIdeal_ReferenceIdeal := by
  intro m ρ m' ρ' _ hagree
  refine ⟨fun c => Cert.KernelIdeal.Final.resultOf m c, ?_, ?_⟩
  · exact (θ_run Cert.KernelIdeal.defs _ _).mono
      (fun r h c => ⟨(Cert.KernelIdeal.Frame.post_result m r h c).trans (Cert.KernelIdeal.Final.final m c),
        Cert.KernelIdeal.Frame.post_args m r h c⟩)
      (Cert.KernelIdeal.Frame.regionRun m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7⟩ := hagree c
    rw [Cert.ReferenceIdeal.ReadP.val_main_v65_eq, Cert.ReferenceIdeal.RefValue.reference_is_result, a0, a1, a2, a3, a4, a5, a6, a7]
    show _ = Cert.KernelIdeal.Final.resultOf m c
    unfold Cert.KernelIdeal.Final.resultOf
    rw [Cert.KernelIdeal.SharedTable.table_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
